-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg14 : IVec S800000 32) (main_v63 : IVec S_ 1) (main_v65 : IVec S800000 1) (main_v67 : IVec S800000 1) : IVec S_ 1 :=
  let main_v68 : IVec S800000 1 := andi main_v65 main_v67
  let main_c_26 : IVec S_ 1 := constantI S_ 1 1#1
  let main_v69 : IVec S_ 1 := (fun x v => Host.reduce IntOp.andi x v reducesTo_S800000_S_d0 h_S_) main_v68 main_c_26
  let main_v70 : IVec S_ 1 := andi main_v63 main_v69
  let main_c_27 : IVec S_ 32 := constantI S_ 32 0#32
  let main_v71 : IVec S800000 32 := broadcastInDim S800000 ![] bcast_S_S800000 main_c_27
  let main_v72 : IVec S800000 1 := cmpi .sge main_arg14 main_v71
  let main_c_28 : IVec S_ 32 := constantI S_ 32 50000#32
  let main_v73 : IVec S800000 32 := broadcastInDim S800000 ![] bcast_S_S800000 main_c_28
  let main_v74 : IVec S800000 1 := cmpi .slt main_arg14 main_v73
  let main_v75 : IVec S800000 1 := andi main_v72 main_v74
  let main_c_29 : IVec S_ 1 := constantI S_ 1 1#1
  let main_v76 : IVec S_ 1 := (fun x v => Host.reduce IntOp.andi x v reducesTo_S800000_S_d0 h_S_) main_v75 main_c_29
  let main_v77 : IVec S_ 1 := andi main_v70 main_v76
  main_v77

def fn_part3 {F : FTy → Type} [FloatOps F] (main_arg11 : FVec F S128 .f32) (main_arg12 : FVec F S128x1 .f32) (main_arg13 : IVec S800000 32) (main_arg14 : IVec S800000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_c_24 : IVec S_ 32 := constantI S_ 32 0#32
  let main_v64 : IVec S800000 32 := broadcastInDim S800000 ![] bcast_S_S800000 main_c_24
  let main_v65 : IVec S800000 1 := cmpi .sge main_arg13 main_v64
  let main_c_25 : IVec S_ 32 := constantI S_ 32 50000#32
  let main_v66 : IVec S800000 32 := broadcastInDim S800000 ![] bcast_S_S800000 main_c_25
  let main_v67 : IVec S800000 1 := cmpi .slt main_arg13 main_v66
  fn_part4 (F := F) main_arg14 main_v63 main_v65 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : IVec S800000 32) (main_arg14 : IVec S800000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : IVec S800000 32) (main_arg14 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x128 .f32) (main_arg1 : FVec F S50000x3 .f32) (main_arg2 : FVec F S257x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : IVec S800000 32) (main_arg14 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg2
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S800000x3 : Shape := ⟨2, ![800000, 3]⟩
abbrev S1x128 : Shape := ⟨2, ![1, 128]⟩
abbrev S6400x128 : Shape := ⟨2, ![6400, 128]⟩
abbrev S6400x1 : Shape := ⟨2, ![6400, 1]⟩
abbrev S6400x3 : Shape := ⟨2, ![6400, 3]⟩
abbrev S5000x128 : Shape := ⟨2, ![5000, 128]⟩

abbrev nBuf : Space → Nat
  | .hbm => 134
  | .vmem => 32
  | .smem => 0
  | _ => 0

abbrev hbmTy0_0 (i : Nat) : BufTy := match i % 128 with
  | 0 => ⟨S50000x128, .f32⟩
  | 1 => ⟨S50000x3, .f32⟩
  | 2 => ⟨S257x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x128, .f32⟩
  | 57 => ⟨S800000x128, .i1⟩
  | 58 => ⟨S_, .f32⟩
  | 59 => ⟨S800000x128, .f32⟩
  | 60 => ⟨S800000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x3, .f32⟩
  | 80 => ⟨S800000x3, .i1⟩
  | 81 => ⟨S_, .f32⟩
  | 82 => ⟨S800000x3, .f32⟩
  | 83 => ⟨S800000x3, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x3, .f32⟩
  | 103 => ⟨S800000x3, .i1⟩
  | 104 => ⟨S_, .f32⟩
  | 105 => ⟨S800000x3, .f32⟩
  | 106 => ⟨S800000x3, .f32⟩
  | 107 => ⟨S800000x3, .f32⟩
  | 108 => ⟨S800000x3, .f32⟩
  | 109 => ⟨S_, .f32⟩
  | 110 => ⟨S800000, .f32⟩
  | 111 => ⟨S800000x1, .f32⟩
  | 112 => ⟨S128x128, .f32⟩
  | 113 => ⟨S128x128, .f32⟩
  | 114 => ⟨S1x128, .f32⟩
  | 115 => ⟨S1x128, .f32⟩
  | 116 => ⟨S1x128, .f32⟩
  | 117 => ⟨S1x128, .f32⟩
  | 118 => ⟨S800000x128, .f32⟩
  | 119 => ⟨S800000x3, .f32⟩
  | 120 => ⟨S_, .f32⟩
  | 121 => ⟨S50000x128, .f32⟩
  | 122 => ⟨S800000x1, .i32⟩
  | 123 => ⟨S50000x128, .f32⟩
  | 124 => ⟨S_, .f32⟩
  | 125 => ⟨S50000x3, .f32⟩
  | 126 => ⟨S800000x1, .i32⟩
  | 127 => ⟨S50000x3, .f32⟩
  | _ => ⟨S50000x128, .f32⟩

abbrev hbmTy0_1 (i : Nat) : BufTy := match i % 128 with
  | 0 => ⟨S128x128, .f32⟩
  | 1 => ⟨S128x128, .f32⟩
  | 2 => ⟨S1x128, .f32⟩
  | 3 => ⟨S1x128, .f32⟩
  | 4 => ⟨S50000x128, .f32⟩
  | 5 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x1, .f32⟩
  | .local _ .vmem, ⟨5, _⟩ => ⟨S6400x1, .f32⟩
  | .local _ .vmem, ⟨6, _⟩ => ⟨S6400x3, .f32⟩
  | .local _ .vmem, ⟨7, _⟩ => ⟨S6400x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S6400x128, .f32⟩
  | .local _ .vmem, ⟨18, _⟩ => ⟨S6400x128, .f32⟩
  | .local _ .vmem, ⟨19, _⟩ => ⟨S6400x3, .f32⟩
  | .local _ .vmem, ⟨20, _⟩ => ⟨S6400x3, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v1 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v2 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v3 : Ref sig .tc := ⟨.hbm, 106, rfl⟩
abbrev main_v4 : Ref sig .tc := ⟨.hbm, 107, rfl⟩
abbrev main_v5 : Ref sig .tc := ⟨.hbm, 108, rfl⟩
abbrev main_cst : Ref sig .tc := ⟨.hbm, 109, rfl⟩
abbrev main_v6 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14_0 : Ref sig .tc := ⟨.hbm, 118, rfl⟩
abbrev main_v14_1 : Ref sig .tc := ⟨.hbm, 119, rfl⟩
abbrev main_cst_0 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_cst_1 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S6400x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x3_0 : S800000.BroadcastsInDim S800000x3 (![0] : Fin 1 → Fin S800000x3.rank)
  bcast_S_S800000x3 : S_.BroadcastsInDim S800000x3 (![] : Fin 0 → Fin S800000x3.rank)
  reducesTo_S800000x3_S800000_d1 : S800000x3.ReducesTo [1] S800000
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x1_S128x1_0_0 : ∀ a, (![0, 0] : Fin 2 → Nat) a + S128x1.size a ≤ S128x1.size a
  h_S128x1 : 0 < S128x1.numel
  broadcasts_S6400x1_S6400x128 : S6400x1.Broadcasts S6400x128
  broadcasts_S1x128_S6400x128 : S1x128.Broadcasts S6400x128
  broadcasts_S6400x1_S6400x3 : S6400x1.Broadcasts S6400x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S6400x128_S128x128_S6400x128_1_0_0_1_n_n_wf : DotDims.WF S6400x128 S128x128 S6400x128 [1] [0] [0] [1] [] []
  dot_S6400x128_S128x1_S6400x1_1_0_0_1_n_n_wf : DotDims.WF S6400x128 S128x1 S6400x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S800000x1.size a
  hwx0_2 : ∀ i : grid0.Coords, EltTy.bits .f32 = 32 ∨ (Rect.block (s := S800000x1) S6400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x3.size a ≤ S800000x3.size a
  hwx0_3 : ∀ i : grid0.Coords, EltTy.bits .f32 = 32 ∨ (Rect.block (s := S800000x3) S6400x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x128.size a ≤ S800000x128.size a
  hwx0_13 : ∀ i : grid0.Coords, EltTy.bits .f32 = 32 ∨ (Rect.block (s := S800000x128) S6400x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S6400x3.size a ≤ S800000x3.size a
  hwx0_14 : ∀ i : grid0.Coords, EltTy.bits .f32 = 32 ∨ (Rect.block (s := S800000x3) S6400x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S6400x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14_0) S6400x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v14_1) S6400x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S50000x3, .f32⟩
  | 2 => ⟨S257x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x3, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x3, .f32⟩
  | 33 => ⟨S800000x3, .f32⟩
  | 34 => ⟨S800000x3, .f32⟩
  | 35 => ⟨S_, .f32⟩
  | 36 => ⟨S800000, .f32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x257, .f32⟩
  | 57 => ⟨S800000x128, .f32⟩
  | 58 => ⟨S1x128, .f32⟩
  | 59 => ⟨S800000x128, .f32⟩
  | 60 => ⟨S800000x128, .f32⟩
  | 61 => ⟨S800000x128, .f32⟩
  | 62 => ⟨S800000x128, .f32⟩
  | 63 => ⟨S_, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S800000x128, .f32⟩
  | 70 => ⟨S800000x128, .f32⟩
  | 71 => ⟨S1x128, .f32⟩
  | 72 => ⟨S800000x128, .f32⟩
  | 73 => ⟨S800000x128, .f32⟩
  | 74 => ⟨S800000x128, .f32⟩
  | 75 => ⟨S800000x128, .f32⟩
  | 76 => ⟨S_, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x256, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S50000x128, .f32⟩
  | 106 => ⟨S800000x128, .f32⟩
  | 107 => ⟨S1x128, .f32⟩
  | 108 => ⟨S800000x128, .f32⟩
  | 109 => ⟨S800000x128, .f32⟩
  | 110 => ⟨S800000x128, .f32⟩
  | 111 => ⟨S800000x128, .f32⟩
  | 112 => ⟨S_, .f32⟩
  | 113 => ⟨S800000x128, .f32⟩
  | 114 => ⟨S800000x128, .f32⟩
  | 115 => ⟨S_, .f32⟩
  | 116 => ⟨S800000x128, .f32⟩
  | 117 => ⟨S800000x128, .f32⟩
  | 118 => ⟨S800000x128, .f32⟩
  | 119 => ⟨S800000x1, .f32⟩
  | 120 => ⟨S800000x3, .f32⟩
  | 121 => ⟨S800000x3, .f32⟩
  | 122 => ⟨S_, .f32⟩
  | 123 => ⟨S_, .f32⟩
  | 124 => ⟨S_, .f32⟩
  | 125 => ⟨S800000x3, .f32⟩
  | 126 => ⟨S800000x3, .f32⟩
  | 127 => ⟨S_, .f32⟩
  | _ => ⟨S50000x128, .f32⟩

abbrev hbmTy0_1 (i : Nat) : BufTy := match i % 128 with
  | 0 => ⟨S800000x3, .f32⟩
  | 1 => ⟨S800000x3, .f32⟩
  | 2 => ⟨S_, .f32⟩
  | 3 => ⟨S50000x3, .f32⟩
  | 4 => ⟨S800000x1, .i32⟩
  | 5 => ⟨S50000x3, .f32⟩
  | 6 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v42 : Ref sig .tc := ⟨.hbm, 82, rfl⟩
abbrev main_cst_7 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_8 : Ref sig .tc := ⟨.hbm, 122, rfl⟩
abbrev main_cst_9 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v65 : Ref sig .tc := ⟨.hbm, 129, rfl⟩
abbrev main_cst_10 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The layer as mathematics, on the extended reals, one ROW at a time.

  An edge `e` carries the sender's and the receiver's feature rows `a, b : Fin 128 → EReal`, the squared distance
  `r` of their positions and the position difference `d : Fin 3 → EReal`. With `silu x = x · σ(x)`:
    h   = silu (a · W0s + b · W0r + r · w0rad + b0)        (the first edge layer, its 257-row weight cut in three)
    msg = silu (h · W1 + b1)
    w   = silu (msg · P0 + pb0) · p1                        (one number per edge)
    trans c = min 100 (max (-100) (d c · w))
  and a node with features `x` and aggregated messages `g` ends at
    x + (silu (x · Wa + g · Wb + nb0) · N1 + nb1).
  Every array function below applies one of these to each row, so its value on a block of rows is the same function
  of the blocks (`*_rows`): nothing depends on the number of rows.
  The two laws at the end cut a sum over the 257 (256) rows of a weight into the sums over its parts; they use only
  that addition on the extended reals is commutative and associative.
-/
import Idealize.ShloMosaic.Lib.ValueIdx
import Idealize.ShloMosaic.PureOps.Ideal
import Idealize.ShloMosaic.PureOps.Ideal.Laws

noncomputable section

namespace Cert.Egnn

open Idealize.ShloMosaic Idealize.ShloMosaic.ValueIdx
open scoped BigOperators

/-- An `[n, k]` array of extended reals. -/
abbrev Mat (n k : ℕ) : Type := FVec Ideal ⟨2, ![n, k]⟩ .f32
/-- A `[k]` array of extended reals. -/
abbrev Row1 (k : ℕ) : Type := FVec Ideal ⟨1, ![k]⟩ .f32

/-- Row `p` of an array. -/
def row {n k : ℕ} (A : Mat n k) (p : Fin n) : Fin k → EReal := fun q => A (ix2 p q)

/-- `x · σ(x)`, with `σ x = 1 / (1 + e^(-x))`. -/
def silu (x : EReal) : EReal := x * Ideal.logistic x

/-- The clip's bounds, `-100` and `100`, as the words both programs carry. -/
abbrev lo : EReal := Ideal.ofBits .f32 0xC2C80000#32
abbrev hi : EReal := Ideal.ofBits .f32 0x42C80000#32

/-- The first edge layer at column `j`. -/
def hRow (a b : Fin 128 → EReal) (r : EReal) (w0s w0r : Mat 128 128) (w0rad b0 : Mat 1 128) (j : Fin 128) : EReal :=
  silu ((((∑ k : Fin 128, a k * w0s (ix2 k j)) + ∑ k : Fin 128, b k * w0r (ix2 k j)) + r * w0rad (ix2 0 j)) + b0 (ix2 0 j))

/-- The message at column `j`. -/
def msgRow (a b : Fin 128 → EReal) (r : EReal) (w0s w0r : Mat 128 128) (w0rad b0 : Mat 1 128) (w1 : Mat 128 128) (b1 : Mat 1 128)
    (j : Fin 128) : EReal :=
  silu ((∑ k : Fin 128, hRow a b r w0s w0r w0rad b0 k * w1 (ix2 k j)) + b1 (ix2 0 j))

/-- The position weight of a message row. -/
def wOfMsg (μ : Fin 128 → EReal) (p0 : Mat 128 128) (pb0 : Mat 1 128) (p1 : Mat 128 1) : EReal :=
  ∑ k : Fin 128, silu ((∑ k' : Fin 128, μ k' * p0 (ix2 k' k)) + pb0 (ix2 0 k)) * p1 (ix2 k 0)

/-- One coordinate of the clipped translation. -/
def transOf (d w : EReal) : EReal := min hi (max lo (d * w))

/-- The node update at column `j`. -/
def nodeRow (x g : Fin 128 → EReal) (wa wb : Mat 128 128) (nb0 : Mat 1 128) (n1 : Mat 128 128) (nb1 : Mat 1 128) (j : Fin 128) : EReal :=
  x j + ((∑ k : Fin 128, silu (((∑ k' : Fin 128, x k' * wa (ix2 k' k)) + ∑ k' : Fin 128, g k' * wb (ix2 k' k)) + nb0 (ix2 0 k)) * n1 (ix2 k j))
    + nb1 (ix2 0 j))

/-! ## The arrays, row by row -/

/-- Every edge's message. -/
def EdgeMsg {n : ℕ} (A B : Mat n 128) (R : Mat n 1) (w0s w0r : Mat 128 128) (w0rad b0 : Mat 1 128) (w1 : Mat 128 128) (b1 : Mat 1 128) :
    Mat n 128 :=
  fun i => msgRow (row A (i 0)) (row B (i 0)) (R (ix2 (i 0) 0)) w0s w0r w0rad b0 w1 b1 (i 1)

/-- Every edge's clipped translation. -/
def EdgeTrans {n : ℕ} (A B : Mat n 128) (R : Mat n 1) (D : Mat n 3) (w0s w0r : Mat 128 128) (w0rad b0 : Mat 1 128) (w1 : Mat 128 128)
    (b1 : Mat 1 128) (p0 : Mat 128 128) (pb0 : Mat 1 128) (p1 : Mat 128 1) : Mat n 3 :=
  fun i => transOf (D (ix2 (i 0) (i 1)))
    (wOfMsg (msgRow (row A (i 0)) (row B (i 0)) (R (ix2 (i 0) 0)) w0s w0r w0rad b0 w1 b1) p0 pb0 p1)

/-- Every node's update. -/
def NodeOut {n : ℕ} (X G : Mat n 128) (wa wb : Mat 128 128) (nb0 : Mat 1 128) (n1 : Mat 128 128) (nb1 : Mat 1 128) : Mat n 128 :=
  fun i => nodeRow (row X (i 0)) (row G (i 0)) wa wb nb0 n1 nb1 (i 1)

theorem EdgeMsg_apply {n : ℕ} (A B : Mat n 128) (R : Mat n 1) (w0s w0r : Mat 128 128) (w0rad b0 : Mat 1 128) (w1 : Mat 128 128)
    (b1 : Mat 1 128) (p : Fin n) (j : Fin 128) :
    EdgeMsg A B R w0s w0r w0rad b0 w1 b1 (ix2 p j) = msgRow (row A p) (row B p) (R (ix2 p 0)) w0s w0r w0rad b0 w1 b1 j := rfl

theorem EdgeTrans_apply {n : ℕ} (A B : Mat n 128) (R : Mat n 1) (D : Mat n 3) (w0s w0r : Mat 128 128) (w0rad b0 : Mat 1 128)
    (w1 : Mat 128 128) (b1 : Mat 1 128) (p0 : Mat 128 128) (pb0 : Mat 1 128) (p1 : Mat 128 1) (p : Fin n) (q : Fin 3) :
    EdgeTrans A B R D w0s w0r w0rad b0 w1 b1 p0 pb0 p1 (ix2 p q)
      = transOf (D (ix2 p q)) (wOfMsg (msgRow (row A p) (row B p) (R (ix2 p 0)) w0s w0r w0rad b0 w1 b1) p0 pb0 p1) := rfl

theorem NodeOut_apply {n : ℕ} (X G : Mat n 128) (wa wb : Mat 128 128) (nb0 : Mat 1 128) (n1 : Mat 128 128) (nb1 : Mat 1 128)
    (p : Fin n) (j : Fin 128) :
    NodeOut X G wa wb nb0 n1 nb1 (ix2 p j) = nodeRow (row X p) (row G p) wa wb nb0 n1 nb1 j := rfl

/-! ## A block of rows of such an array is the same function of the blocks

`f : Fin m → Fin n` says which row of the array each row of the block is. -/

theorem EdgeMsg_rows {m n : ℕ} (f : Fin m → Fin n) (A B : Mat n 128) (R : Mat n 1) (A' B' : Mat m 128) (R' : Mat m 1)
    (w0s w0r : Mat 128 128) (w0rad b0 : Mat 1 128) (w1 : Mat 128 128) (b1 : Mat 1 128)
    (hA : ∀ p q, A' (ix2 p q) = A (ix2 (f p) q)) (hB : ∀ p q, B' (ix2 p q) = B (ix2 (f p) q)) (hR : ∀ p, R' (ix2 p 0) = R (ix2 (f p) 0))
    (p : Fin m) (j : Fin 128) :
    EdgeMsg A' B' R' w0s w0r w0rad b0 w1 b1 (ix2 p j) = EdgeMsg A B R w0s w0r w0rad b0 w1 b1 (ix2 (f p) j) := by
  rw [EdgeMsg_apply, EdgeMsg_apply, hR p, show row A' p = row A (f p) from funext fun q => hA p q,
    show row B' p = row B (f p) from funext fun q => hB p q]

theorem EdgeTrans_rows {m n : ℕ} (f : Fin m → Fin n) (A B : Mat n 128) (R : Mat n 1) (D : Mat n 3) (A' B' : Mat m 128) (R' : Mat m 1)
    (D' : Mat m 3) (w0s w0r : Mat 128 128) (w0rad b0 : Mat 1 128) (w1 : Mat 128 128) (b1 : Mat 1 128) (p0 : Mat 128 128)
    (pb0 : Mat 1 128) (p1 : Mat 128 1)
    (hA : ∀ p q, A' (ix2 p q) = A (ix2 (f p) q)) (hB : ∀ p q, B' (ix2 p q) = B (ix2 (f p) q)) (hR : ∀ p, R' (ix2 p 0) = R (ix2 (f p) 0))
    (hD : ∀ p q, D' (ix2 p q) = D (ix2 (f p) q)) (p : Fin m) (q : Fin 3) :
    EdgeTrans A' B' R' D' w0s w0r w0rad b0 w1 b1 p0 pb0 p1 (ix2 p q)
      = EdgeTrans A B R D w0s w0r w0rad b0 w1 b1 p0 pb0 p1 (ix2 (f p) q) := by
  rw [EdgeTrans_apply, EdgeTrans_apply, hR p, hD p q, show row A' p = row A (f p) from funext fun q => hA p q,
    show row B' p = row B (f p) from funext fun q => hB p q]

theorem NodeOut_rows {m n : ℕ} (f : Fin m → Fin n) (X G : Mat n 128) (X' G' : Mat m 128) (wa wb : Mat 128 128) (nb0 : Mat 1 128)
    (n1 : Mat 128 128) (nb1 : Mat 1 128)
    (hX : ∀ p q, X' (ix2 p q) = X (ix2 (f p) q)) (hG : ∀ p q, G' (ix2 p q) = G (ix2 (f p) q)) (p : Fin m) (j : Fin 128) :
    NodeOut X' G' wa wb nb0 n1 nb1 (ix2 p j) = NodeOut X G wa wb nb0 n1 nb1 (ix2 (f p) j) := by
  rw [NodeOut_apply, NodeOut_apply, show row X' p = row X (f p) from funext fun q => hX p q,
    show row G' p = row G (f p) from funext fun q => hG p q]

/-! ## A sum over the rows of a weight, cut at its parts -/

/-- `257 = 128 + 128 + 1`: the first 128 terms, the next 128, and the last one. -/
theorem sum_257 (f : Fin 257 → EReal) :
    ∑ k : Fin 257, f k
      = ((∑ k : Fin 128, f ⟨k.val, by omega⟩) + ∑ k : Fin 128, f ⟨128 + k.val, by omega⟩) + f ⟨256, by omega⟩ := by
  have h1 := Fin.sum_univ_castSucc (n := 256) f
  have h2 := Fin.sum_univ_add (a := 128) (b := 128) (fun k : Fin (128 + 128) => f (Fin.castSucc k))
  rw [h1, h2]
  rfl

/-- `256 = 128 + 128`. -/
theorem sum_256 (f : Fin 256 → EReal) :
    ∑ k : Fin 256, f k = (∑ k : Fin 128, f ⟨k.val, by omega⟩) + ∑ k : Fin 128, f ⟨128 + k.val, by omega⟩ := by
  have h2 := Fin.sum_univ_add (a := 128) (b := 128) (fun k : Fin (128 + 128) => f k)
  rw [h2]
  rfl

end Cert.Egnn

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.EdgePayload.lean ====
/-
  The edge kernel's two stored values, as functions of the blocks it loads: the message block is `Egnn.EdgeMsg` of
  the 6400-row blocks and the translation block is `Egnn.EdgeTrans` of them (casts to bf16 are the identity on the
  extended reals, a product into the zero accumulator is the plain sum, the logistic is `1 / (1 + e^(-x))`).
-/
import proofs.«410676_j8297876816265_1_alg».proof.Proof.Gen.KernelIdeal.Skeleton
import proofs.«410676_j8297876816265_1_alg».proof.Proof.Spec
import proofs.«410676_j8297876816265_1_alg».proof.Proof.LibRowOps

noncomputable section

namespace Cert.KernelIdeal.EdgePayload

open Cert.KernelIdeal Cert.KernelIdeal.Gen Cert.Egnn Idealize.ShloMosaic Idealize.ShloMosaic.TcCoe Idealize.ShloMosaic.ValueIdx
open scoped BigOperators

/-
  How the two equations are read. Everything is taken at an index `(p, j)`. Each layer of the program is a product
  into the zero accumulator (the sum over the 128 columns of row `p` of its left operand), plus rows or a column
  broadcast over the block, followed by `x · σ(x)`; so the first layer at `(p, k)` is `hRow` of row `p` of the
  blocks, the message at `(p, j)` sums those over `k`, the position weight sums the activated position layer over
  its columns, and the translation multiplies the position difference by that one number and clips it.
-/

/-! ## A column broadcast over many columns, and the two products' dimension records -/

/-- A `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The `[6400, 128] × [128, 128]` product contracts the left operand's columns with the right operand's rows. -/
theorem dot128_plain : dot_S6400x128_S128x128_S6400x128_1_0_0_1_n_n = DotDims.plain 6400 128 128 := rfl

/-- So does the `[6400, 128] × [128, 1]` product. -/
theorem dot1_plain : dot_S6400x128_S128x1_S6400x1_1_0_0_1_n_n = DotDims.plain 6400 128 1 := rfl

/-- A `[6400, 128] × [128, 128]` product into the zero accumulator, at `(p, j)`. -/
theorem prod128_apply (l : FVec Ideal S6400x128 .bf16) (r : FVec Ideal S128x128 .bf16) (p : Fin 6400) (j : Fin 128) :
    matmul dot_S6400x128_S128x128_S6400x128_1_0_0_1_n_n none l r (constant (F := Ideal) S6400x128 .f32 0x00000000#32) (ix2 p j)
      = ∑ k : Fin 128, l (ix2 p k) * r (ix2 k j) :=
  Cert.LibRowOps.matmul_plain_apply dot_S6400x128_S128x128_S6400x128_1_0_0_1_n_n dot128_plain none l r p j

/-- A `[6400, 128] × [128, 1]` product into the zero accumulator, at `(p, 0)`. -/
theorem prod1_apply (l : FVec Ideal S6400x128 .bf16) (r : FVec Ideal S128x1 .bf16) (p : Fin 6400) (j : Fin 1) :
    matmul dot_S6400x128_S128x1_S6400x1_1_0_0_1_n_n none l r (constant (F := Ideal) S6400x1 .f32 0x00000000#32) (ix2 p j)
      = ∑ k : Fin 128, l (ix2 p k) * r (ix2 k j) :=
  Cert.LibRowOps.matmul_plain_apply dot_S6400x128_S128x1_S6400x1_1_0_0_1_n_n dot1_plain none l r p j

/-! ## The first layer -/

/-- The first layer before its activation, as the program spells it: the two products, the squared distance times
    its weight row, the bias row. -/
def hPre (v5 : FVec Ideal S6400x1 .f32) (v13 : FVec Ideal S128x128 .bf16) (v15 v17 : FVec Ideal S1x128 .f32)
    (v29 : FVec Ideal S6400x128 .bf16) (v30 : FVec Ideal S6400x128 .f32) : FVec Ideal S6400x128 .f32 :=
  addf (addf (addf v30
        (matmul dot_S6400x128_S128x128_S6400x128_1_0_0_1_n_n none v29 v13 (constant (F := Ideal) S6400x128 .f32 0x00000000#32)))
      (mulf (broadcastTo S6400x128 v5 broadcasts_S6400x1_S6400x128) (broadcastTo S6400x128 v15 broadcasts_S1x128_S6400x128)))
    (broadcastTo S6400x128 v17 broadcasts_S1x128_S6400x128)

theorem hPre_apply (v5 : FVec Ideal S6400x1 .f32) (v13 : FVec Ideal S128x128 .bf16) (v15 v17 : FVec Ideal S1x128 .f32)
    (v29 : FVec Ideal S6400x128 .bf16) (v30 : FVec Ideal S6400x128 .f32) (p : Fin 6400) (j : Fin 128) :
    hPre v5 v13 v15 v17 v29 v30 (ix2 p j)
      = ((v30 (ix2 p j) + ∑ k : Fin 128, v29 (ix2 p k) * v13 (ix2 k j)) + v5 (ix2 p 0) * v15 (ix2 0 j)) + v17 (ix2 0 j) := by
  unfold hPre
  simp only [addf_apply, mulf_apply]
  rw [prod128_apply, broadcastTo_a1_ab_apply, broadcastTo_1b_ab_apply, broadcastTo_1b_ab_apply]

/-- The first product, of the senders' block by its weight. -/
theorem pay14_apply (x0 : FVec Ideal S6400x128 .f32) (x4 : FVec Ideal S128x128 .f32) (p : Fin 6400) (j : Fin 128) :
    k0_pay14 (F := Ideal) x0 x4 (ix2 p j) = ∑ k : Fin 128, x0 (ix2 p k) * x4 (ix2 k j) := by
  have e : k0_pay14 (F := Ideal) x0 x4 (ix2 p j)
      = matmul dot_S6400x128_S128x128_S6400x128_1_0_0_1_n_n none (truncf .bf16 x0 bitsLt_bf16_f32)
          (truncf .bf16 x4 bitsLt_bf16_f32) (constant (F := Ideal) S6400x128 .f32 0x00000000#32) (ix2 p j) := by
    unfold k0_pay14
    simp only [shapeCast_self]
  rw [e, prod128_apply]
  rfl

/-! The loaded blocks pass through casts to their own shape (the identity) and narrowings (the identity on the
    extended reals). -/

theorem pay3_eq (x : Vec Ideal S6400x1 .f32) : k0_pay3 (F := Ideal) x = x := shapeCast_self x _
theorem pay4_eq (x : Vec Ideal S6400x3 .f32) : k0_pay4 (F := Ideal) x = x := shapeCast_self x _
theorem pay6_eq (x : Vec Ideal S1x128 .f32) : k0_pay6 (F := Ideal) x = x := shapeCast_self x _
theorem pay7_eq (x : Vec Ideal S1x128 .f32) : k0_pay7 (F := Ideal) x = x := shapeCast_self x _
theorem pay9_eq (x : Vec Ideal S1x128 .f32) : k0_pay9 (F := Ideal) x = x := shapeCast_self x _
theorem pay11_eq (x : Vec Ideal S1x128 .f32) : k0_pay11 (F := Ideal) x = x := shapeCast_self x _
theorem pay5_eq (x : Vec Ideal S128x128 .f32) : k0_pay5 (F := Ideal) x = truncf .bf16 x bitsLt_bf16_f32 := by
  unfold k0_pay5
  simp only [shapeCast_self]
theorem pay13_eq (x : Vec Ideal S6400x128 .f32) : k0_pay13 (F := Ideal) x = truncf .bf16 x bitsLt_bf16_f32 := by
  unfold k0_pay13
  simp only [shapeCast_self]

/-- The first layer at `(p, k)` is `hRow` of row `p` of the blocks. -/
theorem h_apply (x0 x1 : Vec Ideal S6400x128 .f32) (x2 : Vec Ideal S6400x1 .f32) (x4 x5 : Vec Ideal S128x128 .f32)
    (x6 x7 : Vec Ideal S1x128 .f32) (p : Fin 6400) (k : Fin 128) :
    silu (hPre (k0_pay3 x2) (k0_pay5 x5) (k0_pay6 x6) (k0_pay7 x7) (k0_pay13 x1) (k0_pay14 x0 x4) (ix2 p k))
      = hRow (row x0 p) (row x1 p) (x2 (ix2 p 0)) x4 x5 x6 x7 k := by
  rw [hPre_apply, pay14_apply, pay3_eq, pay5_eq, pay6_eq, pay7_eq, pay13_eq]
  rfl

/-! ## The message -/

/-- The message block at `(p, j)`, over the first layer's values on row `p`. -/
theorem pay1_apply (v5 : FVec Ideal S6400x1 .f32) (v13 : FVec Ideal S128x128 .bf16) (v15 v17 : FVec Ideal S1x128 .f32)
    (v19 : FVec Ideal S128x128 .bf16) (v21 : FVec Ideal S1x128 .f32) (v29 : FVec Ideal S6400x128 .bf16)
    (v30 : FVec Ideal S6400x128 .f32) (p : Fin 6400) (j : Fin 128) :
    k0_pay1 (F := Ideal) v5 v13 v15 v17 v19 v21 v29 v30 (constant (F := Ideal) S6400x128 .f32 0x00000000#32)
        (ix2 p j)
      = silu ((∑ k : Fin 128, silu (hPre v5 v13 v15 v17 v29 v30 (ix2 p k)) * v19 (ix2 k j)) + v21 (ix2 0 j)) := by
  have e : k0_pay1 (F := Ideal) v5 v13 v15 v17 v19 v21 v29 v30 (constant (F := Ideal) S6400x128 .f32 0x00000000#32)
        (ix2 p j)
      = silu (matmul dot_S6400x128_S128x128_S6400x128_1_0_0_1_n_n none
            (truncf .bf16 (mulf (hPre v5 v13 v15 v17 v29 v30) (logistic (hPre v5 v13 v15 v17 v29 v30))) bitsLt_bf16_f32) v19
            (constant (F := Ideal) S6400x128 .f32 0x00000000#32) (ix2 p j)
          + broadcastTo S6400x128 v21 broadcasts_S1x128_S6400x128 (ix2 p j)) := rfl
  rw [e, prod128_apply, broadcastTo_1b_ab_apply]
  rfl

theorem pay_msg (x0 x1 : Vec Ideal S6400x128 .f32) (x2 : Vec Ideal S6400x1 .f32) (x4 x5 : Vec Ideal S128x128 .f32)
    (x6 x7 : Vec Ideal S1x128 .f32) (x8 : Vec Ideal S128x128 .f32) (x9 : Vec Ideal S1x128 .f32) :
    k0_pay1 (F := Ideal) (k0_pay3 x2) (k0_pay5 x5) (k0_pay6 x6) (k0_pay7 x7) (k0_pay8 x8) (k0_pay9 x9) (k0_pay13 x1) (k0_pay14 x0 x4)
        (constant S6400x128 .f32 0x00000000#32)
      = EdgeMsg (n := 6400) x0 x1 x2 x4 x5 x6 x7 x8 x9 := by
  funext i
  obtain ⟨p, q, rfl⟩ : ∃ (p : Fin 6400) (q : Fin 128), i = ix2 p q := ⟨i 0, i 1, eq_ix2 i⟩
  rw [EdgeMsg_apply, pay1_apply]
  simp only [h_apply]
  rw [pay9_eq]
  rfl

/-! ## The position weight and the clipped translation -/

/-- The position layer before its activation, over a message block `μ`. -/
def posPre (μ : FVec Ideal S6400x128 .f32) (v23 : FVec Ideal S128x128 .bf16) (v25 : FVec Ideal S1x128 .f32) :
    FVec Ideal S6400x128 .f32 :=
  addf (matmul dot_S6400x128_S128x128_S6400x128_1_0_0_1_n_n none (truncf .bf16 μ bitsLt_bf16_f32) v23
      (constant (F := Ideal) S6400x128 .f32 0x00000000#32))
    (broadcastTo S6400x128 v25 broadcasts_S1x128_S6400x128)

theorem posPre_apply (μ : FVec Ideal S6400x128 .f32) (v23 : FVec Ideal S128x128 .bf16) (v25 : FVec Ideal S1x128 .f32)
    (p : Fin 6400) (j : Fin 128) :
    posPre μ v23 v25 (ix2 p j) = (∑ k : Fin 128, μ (ix2 p k) * v23 (ix2 k j)) + v25 (ix2 0 j) := by
  unfold posPre
  simp only [addf_apply]
  rw [prod128_apply, broadcastTo_1b_ab_apply]
  rfl

/-- The position weight, one number per row, as the program spells it. -/
def wCol (μ : FVec Ideal S6400x128 .f32) (v23 : FVec Ideal S128x128 .bf16) (v25 : FVec Ideal S1x128 .f32)
    (v27 : FVec Ideal S128x1 .bf16) : FVec Ideal S6400x1 .f32 :=
  matmul dot_S6400x128_S128x1_S6400x1_1_0_0_1_n_n none
    (truncf .bf16 (mulf (posPre μ v23 v25) (logistic (posPre μ v23 v25))) bitsLt_bf16_f32) v27
    (constant (F := Ideal) S6400x1 .f32 0x00000000#32)

theorem wCol_apply (μ : FVec Ideal S6400x128 .f32) (v23 : FVec Ideal S128x128 .bf16) (v25 : FVec Ideal S1x128 .f32)
    (v27 : FVec Ideal S128x1 .bf16) (p : Fin 6400) :
    wCol μ v23 v25 v27 (ix2 p 0)
      = ∑ k : Fin 128, silu ((∑ k' : Fin 128, μ (ix2 p k') * v23 (ix2 k' k)) + v25 (ix2 0 k)) * v27 (ix2 k 0) := by
  unfold wCol
  rw [prod1_apply]
  refine Finset.sum_congr rfl fun k _ => ?_
  show silu (posPre μ v23 v25 (ix2 p k)) * v27 (ix2 k 0) = _
  rw [posPre_apply]

/-- The translation block at `(p, q)`: the position difference times the row's weight, clipped. -/
theorem pay2_apply (v5 : FVec Ideal S6400x1 .f32) (v7 : FVec Ideal S6400x3 .f32) (v13 : FVec Ideal S128x128 .bf16)
    (v15 v17 : FVec Ideal S1x128 .f32) (v19 : FVec Ideal S128x128 .bf16) (v21 : FVec Ideal S1x128 .f32)
    (v23 : FVec Ideal S128x128 .bf16) (v25 : FVec Ideal S1x128 .f32) (v27 : FVec Ideal S128x1 .bf16)
    (v29 : FVec Ideal S6400x128 .bf16) (v30 : FVec Ideal S6400x128 .f32) (p : Fin 6400) (q : Fin 3) :
    k0_pay2 (F := Ideal) v5 v7 v13 v15 v17 v19 v21 v23 v25 v27 v29 v30
        (constant (F := Ideal) S6400x128 .f32 0x00000000#32) (ix2 p q)
      = transOf (v7 (ix2 p q))
          (wCol (k0_pay1 (F := Ideal) v5 v13 v15 v17 v19 v21 v29 v30 (constant (F := Ideal) S6400x128 .f32 0x00000000#32)) v23 v25 v27
            (ix2 p 0)) := by
  have e : k0_pay2 (F := Ideal) v5 v7 v13 v15 v17 v19 v21 v23 v25 v27 v29 v30
        (constant (F := Ideal) S6400x128 .f32 0x00000000#32) (ix2 p q)
      = min hi (max lo (v7 (ix2 p q)
          * broadcastTo S6400x3
              (wCol (k0_pay1 (F := Ideal) v5 v13 v15 v17 v19 v21 v29 v30 (constant (F := Ideal) S6400x128 .f32 0x00000000#32)) v23 v25 v27)
              broadcasts_S6400x1_S6400x3 (ix2 p q))) := rfl
  rw [e, broadcastTo_a1_ab_apply]
  rfl

theorem pay_trans (x0 x1 : Vec Ideal S6400x128 .f32) (x2 : Vec Ideal S6400x1 .f32) (x3 : Vec Ideal S6400x3 .f32)
    (x4 x5 : Vec Ideal S128x128 .f32) (x6 x7 : Vec Ideal S1x128 .f32) (x8 : Vec Ideal S128x128 .f32) (x9 : Vec Ideal S1x128 .f32)
    (x10 : Vec Ideal S128x128 .f32) (x11 : Vec Ideal S1x128 .f32) (x12 : Vec Ideal S128x1 .f32) :
    k0_pay2 (F := Ideal) (k0_pay3 x2) (k0_pay4 x3) (k0_pay5 x5) (k0_pay6 x6) (k0_pay7 x7) (k0_pay8 x8) (k0_pay9 x9) (k0_pay10 x10)
        (k0_pay11 x11) (k0_pay12 x12) (k0_pay13 x1) (k0_pay14 x0 x4) (constant S6400x128 .f32 0x00000000#32)
      = EdgeTrans (n := 6400) x0 x1 x2 x3 x4 x5 x6 x7 x8 x9 x10 x11 x12 := by
  funext i
  obtain ⟨p, q, rfl⟩ : ∃ (p : Fin 6400) (q : Fin 3), i = ix2 p q := ⟨i 0, i 1, eq_ix2 i⟩
  rw [EdgeTrans_apply, pay2_apply, pay_msg, wCol_apply, pay4_eq, pay11_eq]
  rfl

end Cert.KernelIdeal.EdgePayload

end
-- ==== Proof.NodePayload.lean ====
/-
  The node kernel's stored value, as a function of the blocks it loads: `Egnn.NodeOut` of the 5000-row blocks.

  Read at the index `(p, j)`: the two products into a zero accumulator are sums over the 128 columns of row `p`,
  the bias rows are broadcast down the rows, the format changes and same-shape casts are the identity on the
  extended reals, and `v * logistic v` is `silu v`.
-/
import proofs.«410676_j8297876816265_1_alg».proof.Proof.Gen.KernelIdeal.Skeleton
import proofs.«410676_j8297876816265_1_alg».proof.Proof.Spec
import proofs.«410676_j8297876816265_1_alg».proof.Proof.LibRowOps

noncomputable section

namespace Cert.KernelIdeal.NodePayload

open Cert.KernelIdeal Cert.KernelIdeal.Gen Cert.Egnn Idealize.ShloMosaic Idealize.ShloMosaic.TcCoe Idealize.ShloMosaic.ValueIdx
open scoped BigOperators

/-- The node kernel's three products all use the plain `[5000, 128] × [128, 128]` dimension record. -/
theorem dot_plain : dot_S5000x128_S128x128_S5000x128_1_0_0_1_n_n = DotDims.plain 5000 128 128 := rfl

/-- The hidden layer before its activation, at `(p, k)`: row `p` of the features times column `k` of `wa`, plus row
    `p` of the aggregate times column `k` of `wb`, plus the bias at `k`. -/
theorem pre_apply (X G : FVec Ideal S5000x128 .f32) (wa wb : FVec Ideal S128x128 .f32) (nb0 : FVec Ideal S1x128 .f32)
    (p : Fin 5000) (k : Fin 128) :
    addf (addf
        (matmul dot_S5000x128_S128x128_S5000x128_1_0_0_1_n_n none (truncf .bf16 X bitsLt_bf16_f32) (truncf .bf16 wa bitsLt_bf16_f32)
          (constant (F := Ideal) S5000x128 .f32 0x00000000#32))
        (matmul dot_S5000x128_S128x128_S5000x128_1_0_0_1_n_n none (truncf .bf16 G bitsLt_bf16_f32) (truncf .bf16 wb bitsLt_bf16_f32)
          (constant (F := Ideal) S5000x128 .f32 0x00000000#32)))
      (broadcastTo S5000x128 nb0 broadcasts_S1x128_S5000x128) (ix2 p k)
      = ((∑ k' : Fin 128, X (ix2 p k') * wa (ix2 k' k)) + ∑ k' : Fin 128, G (ix2 p k') * wb (ix2 k' k)) + nb0 (ix2 0 k) := by
  rw [addf_apply, addf_apply, Cert.LibRowOps.matmul_plain_apply _ dot_plain, Cert.LibRowOps.matmul_plain_apply _ dot_plain,
    broadcastTo_1b_ab_apply]
  rfl

theorem pay_node (x0 x1 : Vec Ideal S5000x128 .f32) (x2 x3 : Vec Ideal S128x128 .f32) (x4 : Vec Ideal S1x128 .f32)
    (x5 : Vec Ideal S128x128 .f32) (x6 : Vec Ideal S1x128 .f32) :
    k1_pay1 (F := Ideal) x0 x1 x2 x3 x4 x5 x6 = NodeOut (n := 5000) x0 x1 x2 x3 x4 x5 x6 := by
  funext i
  obtain ⟨p, j, rfl⟩ : ∃ (p : Fin 5000) (j : Fin 128), i = ix2 p j := ⟨i 0, i 1, eq_ix2 i⟩
  rw [NodeOut_apply]
  unfold k1_pay1
  simp only [shapeCast_self]
  rw [addf_apply, addf_apply, Cert.LibRowOps.matmul_plain_apply _ dot_plain, broadcastTo_1b_ab_apply]
  unfold nodeRow
  refine congrArg (fun s => x0 (ix2 p j) + (s + x6 (ix2 0 j))) (Finset.sum_congr rfl fun k _ => ?_)
  rw [truncf_apply, truncf_apply, mulf_apply]
  refine congrArg (· * x5 (ix2 k j)) ?_
  show _ * Ideal.logistic _ = _
  rw [pre_apply]
  rfl

end Cert.KernelIdeal.NodePayload

end
-- ==== Proof.Regions.lean ====
/-
  Each output array of the two kernels after its region, as one row-by-row function of the arrays the region finds.

  Every window of both kernels is either a whole small array (a weight, a bias row) or the block of 6400 (5000)
  consecutive rows that point `t` of the one-axis grid owns, rows `6400 t … 6400 t + 6399`; the output blocks tile
  their arrays. So point `t` writes back block `t` of the row-wise function of the whole arrays, and the array ends
  holding that function.

  In order, for the edge kernel and then for the node kernel: the block index of every window at every point, decided
  over the grid; where an element of a block sits in its array (row `6400 t + p`, the same column) and, from that,
  each loaded block as rows of its array, a whole-array window's block being the array; what point `t` writes back,
  as block `t` of the row-wise function; the blocks of the output window cover its array (row `r` lies in the block
  of point `r / 6400`); hence the array after the region.
-/
import proofs.«410676_j8297876816265_1_alg».proof.Proof.Gen.KernelIdeal.Frame
import proofs.«410676_j8297876816265_1_alg».proof.Proof.Spec
import proofs.«410676_j8297876816265_1_alg».proof.Proof.EdgePayload
import proofs.«410676_j8297876816265_1_alg».proof.Proof.NodePayload
import Idealize.ShloMosaic.Lib.Pipeline.Value

set_option maxRecDepth 16384

noncomputable section

namespace Cert.KernelIdeal.Regions

open Cert.KernelIdeal Cert.KernelIdeal.Gen Cert.Egnn Idealize.ShloMosaic Idealize.ShloMosaic.TcCoe Idealize.ShloMosaic.ValueIdx
open Idealize.SL.Sem

variable (V : (c : Dev nD) → (b : Ref sig .tc) → Buf (Elt Ideal) ((c : Thread nD τ).loc b))

/-- The offsets of a whole-buffer access are zero on both axes. -/
theorem zero_offsets : (![0, 0] : Fin 2 → Nat) = fun _ => 0 := funext fun a => by fin_cases a <;> rfl

/-! # The edge kernel: 125 points, 6400 edges each -/

theorem edge_points : cfg0.N = 125 := by decide

/-! ## The block index of each window at each point, decided over the grid

The four per-edge inputs and the two outputs take block `t` of rows at point `t`; the nine weights and biases are
one block each. -/

theorem index_A : ∀ t : Fin cfg0.N, win0_0.index t (0 : Fin 2) = t.val ∧ win0_0.index t (1 : Fin 2) = 0 :=
  (by decide +kernel : ∀ t : Fin grid0.N, _)
theorem index_B : ∀ t : Fin cfg0.N, win0_1.index t (0 : Fin 2) = t.val ∧ win0_1.index t (1 : Fin 2) = 0 :=
  (by decide +kernel : ∀ t : Fin grid0.N, _)
theorem index_R : ∀ t : Fin cfg0.N, win0_2.index t (0 : Fin 2) = t.val ∧ win0_2.index t (1 : Fin 2) = 0 :=
  (by decide +kernel : ∀ t : Fin grid0.N, _)
theorem index_D : ∀ t : Fin cfg0.N, win0_3.index t (0 : Fin 2) = t.val ∧ win0_3.index t (1 : Fin 2) = 0 :=
  (by decide +kernel : ∀ t : Fin grid0.N, _)
theorem index_w0s : ∀ t : Fin cfg0.N, win0_4.index t (0 : Fin 2) = 0 ∧ win0_4.index t (1 : Fin 2) = 0 :=
  (by decide +kernel : ∀ t : Fin grid0.N, _)
theorem index_w0r : ∀ t : Fin cfg0.N, win0_5.index t (0 : Fin 2) = 0 ∧ win0_5.index t (1 : Fin 2) = 0 :=
  (by decide +kernel : ∀ t : Fin grid0.N, _)
theorem index_w0rad : ∀ t : Fin cfg0.N, win0_6.index t (0 : Fin 2) = 0 ∧ win0_6.index t (1 : Fin 2) = 0 :=
  (by decide +kernel : ∀ t : Fin grid0.N, _)
theorem index_b0 : ∀ t : Fin cfg0.N, win0_7.index t (0 : Fin 2) = 0 ∧ win0_7.index t (1 : Fin 2) = 0 :=
  (by decide +kernel : ∀ t : Fin grid0.N, _)
theorem index_w1 : ∀ t : Fin cfg0.N, win0_8.index t (0 : Fin 2) = 0 ∧ win0_8.index t (1 : Fin 2) = 0 :=
  (by decide +kernel : ∀ t : Fin grid0.N, _)
theorem index_b1 : ∀ t : Fin cfg0.N, win0_9.index t (0 : Fin 2) = 0 ∧ win0_9.index t (1 : Fin 2) = 0 :=
  (by decide +kernel : ∀ t : Fin grid0.N, _)
theorem index_p0 : ∀ t : Fin cfg0.N, win0_10.index t (0 : Fin 2) = 0 ∧ win0_10.index t (1 : Fin 2) = 0 :=
  (by decide +kernel : ∀ t : Fin grid0.N, _)
theorem index_pb0 : ∀ t : Fin cfg0.N, win0_11.index t (0 : Fin 2) = 0 ∧ win0_11.index t (1 : Fin 2) = 0 :=
  (by decide +kernel : ∀ t : Fin grid0.N, _)
theorem index_p1 : ∀ t : Fin cfg0.N, win0_12.index t (0 : Fin 2) = 0 ∧ win0_12.index t (1 : Fin 2) = 0 :=
  (by decide +kernel : ∀ t : Fin grid0.N, _)
theorem index_msg : ∀ t : Fin cfg0.N, win0_13.index t (0 : Fin 2) = t.val ∧ win0_13.index t (1 : Fin 2) = 0 :=
  (by decide +kernel : ∀ t : Fin grid0.N, _)
theorem index_trans : ∀ t : Fin cfg0.N, win0_14.index t (0 : Fin 2) = t.val ∧ win0_14.index t (1 : Fin 2) = 0 :=
  (by decide +kernel : ∀ t : Fin grid0.N, _)

/-! ## Where a block's element sits in its array -/

/-- Row `p` of the block of point `t` is edge `6400 t + p`. -/
def edgeOf (t : Fin cfg0.N) (p : Fin 6400) : Fin 800000 :=
  ⟨t.val * 6400 + p.val, by have h : t.val < 125 := edge_points ▸ t.isLt; have := p.isLt; omega⟩

/-- An element of the message block of point `t`: edge `6400 t + p`, the same column. -/
theorem emb_msg (t : Fin cfg0.N) (p : Fin 6400) (q : Fin 128) :
    ((cfg0.win 13).blk t).view.emb (ix2 p q) = (ix2 (edgeOf t p) q : S800000x128.Idx) := by
  obtain ⟨h0, h1⟩ := index_msg t
  funext a; apply Fin.ext
  match a with
  | ⟨0, _⟩ => show win0_13.index t (0 : Fin 2) * 6400 + 1 * p.val = t.val * 6400 + p.val; omega
  | ⟨1, _⟩ => show win0_13.index t (1 : Fin 2) * 128 + 1 * q.val = q.val; omega

/-- An element of the translation block of point `t`: edge `6400 t + p`, the same coordinate. -/
theorem emb_trans (t : Fin cfg0.N) (p : Fin 6400) (q : Fin 3) :
    ((cfg0.win 14).blk t).view.emb (ix2 p q) = (ix2 (edgeOf t p) q : S800000x3.Idx) := by
  obtain ⟨h0, h1⟩ := index_trans t
  funext a; apply Fin.ext
  match a with
  | ⟨0, _⟩ => show win0_14.index t (0 : Fin 2) * 6400 + 1 * p.val = t.val * 6400 + p.val; omega
  | ⟨1, _⟩ => show win0_14.index t (1 : Fin 2) * 3 + 1 * q.val = q.val; omega

/-! ## Each loaded block as rows of its array -/

/-- The senders' feature block at point `t` is rows `6400 t …` of the senders' features. -/
theorem read_A (c : Dev nD) (t : Fin cfg0.N) (p : Fin 6400) (q : Fin 128) :
    (iblk0 V c 0 t : Vec Ideal S6400x128 .f32) (ix2 p q) = (V c main_v0 : Vec Ideal S800000x128 .f32) (ix2 (edgeOf t p) q) := by
  obtain ⟨h0, h1⟩ := index_A t
  unfold iblk0
  rw [View.read_apply]
  show V c main_v0 (((cfg0.win 0).blk t).view.emb (ix2 p q)) = V c main_v0 (ix2 (edgeOf t p) q)
  congr 1
  funext a; apply Fin.ext
  match a with
  | ⟨0, _⟩ => show win0_0.index t (0 : Fin 2) * 6400 + 1 * p.val = t.val * 6400 + p.val; omega
  | ⟨1, _⟩ => show win0_0.index t (1 : Fin 2) * 128 + 1 * q.val = q.val; omega

/-- The receivers' feature block. -/
theorem read_B (c : Dev nD) (t : Fin cfg0.N) (p : Fin 6400) (q : Fin 128) :
    (iblk0 V c 1 t : Vec Ideal S6400x128 .f32) (ix2 p q) = (V c main_v1 : Vec Ideal S800000x128 .f32) (ix2 (edgeOf t p) q) := by
  obtain ⟨h0, h1⟩ := index_B t
  unfold iblk0
  rw [View.read_apply]
  show V c main_v1 (((cfg0.win 1).blk t).view.emb (ix2 p q)) = V c main_v1 (ix2 (edgeOf t p) q)
  congr 1
  funext a; apply Fin.ext
  match a with
  | ⟨0, _⟩ => show win0_1.index t (0 : Fin 2) * 6400 + 1 * p.val = t.val * 6400 + p.val; omega
  | ⟨1, _⟩ => show win0_1.index t (1 : Fin 2) * 128 + 1 * q.val = q.val; omega

/-- The squared-distance block (one column). -/
theorem read_R (c : Dev nD) (t : Fin cfg0.N) (p : Fin 6400) (q : Fin 1) :
    (iblk0 V c 2 t : Vec Ideal S6400x1 .f32) (ix2 p q) = (V c main_v7 : Vec Ideal S800000x1 .f32) (ix2 (edgeOf t p) q) := by
  obtain ⟨h0, h1⟩ := index_R t
  unfold iblk0
  rw [View.read_apply]
  show V c main_v7 (((cfg0.win 2).blk t).view.emb (ix2 p q)) = V c main_v7 (ix2 (edgeOf t p) q)
  congr 1
  funext a; apply Fin.ext
  match a with
  | ⟨0, _⟩ => show win0_2.index t (0 : Fin 2) * 6400 + 1 * p.val = t.val * 6400 + p.val; omega
  | ⟨1, _⟩ => show win0_2.index t (1 : Fin 2) * 1 + 1 * q.val = q.val; omega

/-- The position-difference block (three columns). -/
theorem read_D (c : Dev nD) (t : Fin cfg0.N) (p : Fin 6400) (q : Fin 3) :
    (iblk0 V c 3 t : Vec Ideal S6400x3 .f32) (ix2 p q) = (V c main_v4 : Vec Ideal S800000x3 .f32) (ix2 (edgeOf t p) q) := by
  obtain ⟨h0, h1⟩ := index_D t
  unfold iblk0
  rw [View.read_apply]
  show V c main_v4 (((cfg0.win 3).blk t).view.emb (ix2 p q)) = V c main_v4 (ix2 (edgeOf t p) q)
  congr 1
  funext a; apply Fin.ext
  match a with
  | ⟨0, _⟩ => show win0_3.index t (0 : Fin 2) * 6400 + 1 * p.val = t.val * 6400 + p.val; omega
  | ⟨1, _⟩ => show win0_3.index t (1 : Fin 2) * 3 + 1 * q.val = q.val; omega

/-- A weight's or a bias row's block is the whole array, at every point. -/
theorem read_w0s (c : Dev nD) (t : Fin cfg0.N) :
    (iblk0 V c 4 t : Vec Ideal S128x128 .f32) = (V c main_v8 : Vec Ideal S128x128 .f32) := by
  obtain ⟨h0, h1⟩ := index_w0s t
  funext y
  unfold iblk0
  rw [View.read_apply]
  show V c main_v8 (((cfg0.win 4).blk t).view.emb y) = V c main_v8 y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem read_w0r (c : Dev nD) (t : Fin cfg0.N) :
    (iblk0 V c 5 t : Vec Ideal S128x128 .f32) = (V c main_v9 : Vec Ideal S128x128 .f32) := by
  obtain ⟨h0, h1⟩ := index_w0r t
  funext y
  unfold iblk0
  rw [View.read_apply]
  show V c main_v9 (((cfg0.win 5).blk t).view.emb y) = V c main_v9 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem read_w0rad (c : Dev nD) (t : Fin cfg0.N) :
    (iblk0 V c 6 t : Vec Ideal S1x128 .f32) = (V c main_v10 : Vec Ideal S1x128 .f32) := by
  obtain ⟨h0, h1⟩ := index_w0rad t
  funext y
  unfold iblk0
  rw [View.read_apply]
  show V c main_v10 (((cfg0.win 6).blk t).view.emb y) = V c main_v10 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem read_b0 (c : Dev nD) (t : Fin cfg0.N) :
    (iblk0 V c 7 t : Vec Ideal S1x128 .f32) = (V c main_v11 : Vec Ideal S1x128 .f32) := by
  obtain ⟨h0, h1⟩ := index_b0 t
  funext y
  unfold iblk0
  rw [View.read_apply]
  show V c main_v11 (((cfg0.win 7).blk t).view.emb y) = V c main_v11 y
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem read_w1 (c : Dev nD) (t : Fin cfg0.N) :
    (iblk0 V c 8 t : Vec Ideal S128x128 .f32) = (V c main_arg4 : Vec Ideal S128x128 .f32) := by
  obtain ⟨h0, h1⟩ := index_w1 t
  funext y
  unfold iblk0
  rw [View.read_apply]
  show V c main_arg4 (((cfg0.win 8).blk t).view.emb y) = V c main_arg4 y
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem read_b1 (c : Dev nD) (t : Fin cfg0.N) :
    (iblk0 V c 9 t : Vec Ideal S1x128 .f32) = (V c main_v12 : Vec Ideal S1x128 .f32) := by
  obtain ⟨h0, h1⟩ := index_b1 t
  funext y
  unfold iblk0
  rw [View.read_apply]
  show V c main_v12 (((cfg0.win 9).blk t).view.emb y) = V c main_v12 y
  congr 1
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem read_p0 (c : Dev nD) (t : Fin cfg0.N) :
    (iblk0 V c 10 t : Vec Ideal S128x128 .f32) = (V c main_arg10 : Vec Ideal S128x128 .f32) := by
  obtain ⟨h0, h1⟩ := index_p0 t
  funext y
  unfold iblk0
  rw [View.read_apply]
  show V c main_arg10 (((cfg0.win 10).blk t).view.emb y) = V c main_arg10 y
  congr 1
  funext a; apply Fin.ext
  match a with
  | ⟨0, _⟩ => show win0_10.index t (0 : Fin 2) * 128 + 1 * (y 0).val = (y 0).val; omega
  | ⟨1, _⟩ => show win0_10.index t (1 : Fin 2) * 128 + 1 * (y 1).val = (y 1).val; omega

theorem read_pb0 (c : Dev nD) (t : Fin cfg0.N) :
    (iblk0 V c 11 t : Vec Ideal S1x128 .f32) = (V c main_v13 : Vec Ideal S1x128 .f32) := by
  obtain ⟨h0, h1⟩ := index_pb0 t
  funext y
  unfold iblk0
  rw [View.read_apply]
  show V c main_v13 (((cfg0.win 11).blk t).view.emb y) = V c main_v13 y
  congr 1
  funext a; apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega

theorem read_p1 (c : Dev nD) (t : Fin cfg0.N) :
    (iblk0 V c 12 t : Vec Ideal S128x1 .f32) = (V c main_arg12 : Vec Ideal S128x1 .f32) := by
  obtain ⟨h0, h1⟩ := index_p1 t
  funext y
  unfold iblk0
  rw [View.read_apply]
  show V c main_arg12 (((cfg0.win 12).blk t).view.emb y) = V c main_arg12 y
  congr 1
  funext a; apply Fin.ext
  match a with
  | ⟨0, _⟩ => show win0_12.index t (0 : Fin 2) * 128 + 1 * (y 0).val = (y 0).val; omega
  | ⟨1, _⟩ => show win0_12.index t (1 : Fin 2) * 1 + 1 * (y 1).val = (y 1).val; omega

/-! ## What point `t` writes back -/

/-- Point `t` writes back block `t` of the messages of all edges. -/
theorem flushed_msg (c : Dev nD) (t : Fin cfg0.N) :
    (dat0 (F := Ideal) V c).flushed 13 t
      = ((cfg0.win 13).blk t).view.read (Elt Ideal)
          (EdgeMsg (n := 800000) (V c main_v0) (V c main_v1) (V c main_v7) (V c main_v8) (V c main_v9) (V c main_v10) (V c main_v11)
            (V c main_arg4) (V c main_v12)) := by
  show (cfg0.win 13).cut (grid0.coords t) ((dat0 V c).after 13 t) = _
  rw [after0_13]
  unfold out0_13
  rw [View.canon_unit_zero zero_offsets]
  simp only [View.ld_unit_zero (S := S6400x128) zero_offsets, View.ld_unit_zero (S := S6400x1) zero_offsets,
    View.ld_unit_zero (S := S128x128) zero_offsets, View.ld_unit_zero (S := S1x128) zero_offsets]
  rw [EdgePayload.pay_msg]
  rw [read_w0s V c t, read_w0r V c t, read_w0rad V c t, read_b0 V c t, read_w1 V c t, read_b1 V c t]
  refine funext fun (y : S6400x128.Idx) => ?_
  obtain ⟨p, q, rfl⟩ : ∃ (p : Fin 6400) (q : Fin 128), y = ix2 p q := ⟨y 0, y 1, eq_ix2 y⟩
  show EdgeMsg (n := 6400) (iblk0 V c 0 t) (iblk0 V c 1 t) (iblk0 V c 2 t) (V c main_v8) (V c main_v9) (V c main_v10) (V c main_v11)
        (V c main_arg4) (V c main_v12) (ix2 p q)
      = EdgeMsg (n := 800000) (V c main_v0) (V c main_v1) (V c main_v7) (V c main_v8) (V c main_v9) (V c main_v10) (V c main_v11)
        (V c main_arg4) (V c main_v12) (((cfg0.win 13).blk t).view.emb (ix2 p q))
  rw [emb_msg t p q]
  exact EdgeMsg_rows (edgeOf t) (V c main_v0) (V c main_v1) (V c main_v7) (iblk0 V c 0 t) (iblk0 V c 1 t) (iblk0 V c 2 t)
    (V c main_v8) (V c main_v9) (V c main_v10) (V c main_v11) (V c main_arg4) (V c main_v12)
    (read_A V c t) (read_B V c t) (fun p => read_R V c t p 0) p q

/-- Point `t` writes back block `t` of the clipped translations of all edges. -/
theorem flushed_trans (c : Dev nD) (t : Fin cfg0.N) :
    (dat0 (F := Ideal) V c).flushed 14 t
      = ((cfg0.win 14).blk t).view.read (Elt Ideal)
          (EdgeTrans (n := 800000) (V c main_v0) (V c main_v1) (V c main_v7) (V c main_v4) (V c main_v8) (V c main_v9) (V c main_v10)
            (V c main_v11) (V c main_arg4) (V c main_v12) (V c main_arg10) (V c main_v13) (V c main_arg12)) := by
  show (cfg0.win 14).cut (grid0.coords t) ((dat0 V c).after 14 t) = _
  rw [after0_14]
  unfold out0_14
  rw [View.canon_unit_zero zero_offsets]
  simp only [View.ld_unit_zero (S := S6400x128) zero_offsets, View.ld_unit_zero (S := S6400x1) zero_offsets,
    View.ld_unit_zero (S := S6400x3) zero_offsets, View.ld_unit_zero (S := S128x128) zero_offsets,
    View.ld_unit_zero (S := S1x128) zero_offsets, View.ld_unit_zero (S := S128x1) zero_offsets]
  rw [EdgePayload.pay_trans]
  rw [read_w0s V c t, read_w0r V c t, read_w0rad V c t, read_b0 V c t, read_w1 V c t, read_b1 V c t, read_p0 V c t, read_pb0 V c t,
    read_p1 V c t]
  refine funext fun (y : S6400x3.Idx) => ?_
  obtain ⟨p, q, rfl⟩ : ∃ (p : Fin 6400) (q : Fin 3), y = ix2 p q := ⟨y 0, y 1, eq_ix2 y⟩
  show EdgeTrans (n := 6400) (iblk0 V c 0 t) (iblk0 V c 1 t) (iblk0 V c 2 t) (iblk0 V c 3 t) (V c main_v8) (V c main_v9) (V c main_v10)
        (V c main_v11) (V c main_arg4) (V c main_v12) (V c main_arg10) (V c main_v13) (V c main_arg12) (ix2 p q)
      = EdgeTrans (n := 800000) (V c main_v0) (V c main_v1) (V c main_v7) (V c main_v4) (V c main_v8) (V c main_v9) (V c main_v10)
        (V c main_v11) (V c main_arg4) (V c main_v12) (V c main_arg10) (V c main_v13) (V c main_arg12)
        (((cfg0.win 14).blk t).view.emb (ix2 p q))
  rw [emb_trans t p q]
  exact EdgeTrans_rows (edgeOf t) (V c main_v0) (V c main_v1) (V c main_v7) (V c main_v4) (iblk0 V c 0 t) (iblk0 V c 1 t)
    (iblk0 V c 2 t) (iblk0 V c 3 t) (V c main_v8) (V c main_v9) (V c main_v10) (V c main_v11) (V c main_arg4) (V c main_v12)
    (V c main_arg10) (V c main_v13) (V c main_arg12)
    (read_A V c t) (read_B V c t) (fun p => read_R V c t p 0) (read_D V c t) p q

/-! ## The output blocks cover their arrays -/

/-- An index of the message array is in point `t`'s block iff each coordinate is in the block's range on its axis. -/
theorem mem_blk_msg (t : Fin cfg0.N) (i : S800000x128.Idx) :
    i ∈ ((cfg0.win 13).blk t).view.set ↔ ∀ a : Fin 2, win0_13.index t a * S6400x128.size a ≤ (i a).val
      ∧ (i a).val < win0_13.index t a * S6400x128.size a + S6400x128.size a := by
  show i ∈ ((View.whole main_v14_0).slice (win0_13.rect t)).set ↔ _
  rw [View.set_slice_whole, Rect.mem_set_unit]
  exact Iff.rfl

theorem mem_blk_trans (t : Fin cfg0.N) (i : S800000x3.Idx) :
    i ∈ ((cfg0.win 14).blk t).view.set ↔ ∀ a : Fin 2, win0_14.index t a * S6400x3.size a ≤ (i a).val
      ∧ (i a).val < win0_14.index t a * S6400x3.size a + S6400x3.size a := by
  show i ∈ ((View.whole main_v14_1).slice (win0_14.rect t)).set ↔ _
  rw [View.set_slice_whole, Rect.mem_set_unit]
  exact Iff.rfl

/-- Edge `r` is in the block of point `r / 6400`. -/
theorem cover_msg (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  have ht : (i 0).val / 6400 < cfg0.N := by rw [edge_points]; omega
  obtain ⟨h0, h1⟩ := index_msg ⟨(i 0).val / 6400, ht⟩
  refine ⟨⟨(i 0).val / 6400, ht⟩, flush0_13 _, ?_⟩
  rw [mem_blk_msg]
  intro a
  match a with
  | ⟨0, _⟩ =>
    show win0_13.index ⟨(i 0).val / 6400, ht⟩ (0 : Fin 2) * 6400 ≤ (i 0).val
      ∧ (i 0).val < win0_13.index ⟨(i 0).val / 6400, ht⟩ (0 : Fin 2) * 6400 + 6400
    rw [h0]
    show (i 0).val / 6400 * 6400 ≤ (i 0).val ∧ (i 0).val < (i 0).val / 6400 * 6400 + 6400
    omega
  | ⟨1, _⟩ =>
    show win0_13.index ⟨(i 0).val / 6400, ht⟩ (1 : Fin 2) * 128 ≤ (i 1).val
      ∧ (i 1).val < win0_13.index ⟨(i 0).val / 6400, ht⟩ (1 : Fin 2) * 128 + 128
    rw [h1]
    omega

theorem cover_trans (i : S800000x3.Idx) :
    ∃ t : Fin cfg0.N, (cfg0.win 14).flush t = true ∧ i ∈ ((cfg0.win 14).blk t).view.set := by
  have hi0 : (i 0).val < 800000 := (i 0).isLt
  have hi1 : (i 1).val < 3 := (i 1).isLt
  have ht : (i 0).val / 6400 < cfg0.N := by rw [edge_points]; omega
  obtain ⟨h0, h1⟩ := index_trans ⟨(i 0).val / 6400, ht⟩
  refine ⟨⟨(i 0).val / 6400, ht⟩, flush0_14 _, ?_⟩
  rw [mem_blk_trans]
  intro a
  match a with
  | ⟨0, _⟩ =>
    show win0_14.index ⟨(i 0).val / 6400, ht⟩ (0 : Fin 2) * 6400 ≤ (i 0).val
      ∧ (i 0).val < win0_14.index ⟨(i 0).val / 6400, ht⟩ (0 : Fin 2) * 6400 + 6400
    rw [h0]
    show (i 0).val / 6400 * 6400 ≤ (i 0).val ∧ (i 0).val < (i 0).val / 6400 * 6400 + 6400
    omega
  | ⟨1, _⟩ =>
    show win0_14.index ⟨(i 0).val / 6400, ht⟩ (1 : Fin 2) * 3 ≤ (i 1).val
      ∧ (i 1).val < win0_14.index ⟨(i 0).val / 6400, ht⟩ (1 : Fin 2) * 3 + 3
    rw [h1]
    omega

/-! ## The arrays after the edge kernel -/

/-- The messages: output window 13 of the edge kernel. -/
theorem final_msg (c : Dev nD) :
    (dat0 (F := Ideal) V c).arrAt 13 cfg0.N
      = EdgeMsg (n := 800000) (V c main_v0) (V c main_v1) (V c main_v7) (V c main_v8) (V c main_v9) (V c main_v10) (V c main_v11)
          (V c main_arg4) (V c main_v12) :=
  (dat0 (F := Ideal) V c).arrAt_eq_of_cover 13 _ (fun t _ => flushed_msg V c t) cover_msg

/-- The clipped translations: output window 14 of the edge kernel. -/
theorem final_trans (c : Dev nD) :
    (dat0 (F := Ideal) V c).arrAt 14 cfg0.N
      = EdgeTrans (n := 800000) (V c main_v0) (V c main_v1) (V c main_v7) (V c main_v4) (V c main_v8) (V c main_v9) (V c main_v10)
          (V c main_v11) (V c main_arg4) (V c main_v12) (V c main_arg10) (V c main_v13) (V c main_arg12) :=
  (dat0 (F := Ideal) V c).arrAt_eq_of_cover 14 _ (fun t _ => flushed_trans V c t) cover_trans

/-! # The node kernel: 10 points, 5000 nodes each -/

theorem node_points : cfg1.N = 10 := by decide

theorem index_X : ∀ t : Fin cfg1.N, win1_0.index t (0 : Fin 2) = t.val ∧ win1_0.index t (1 : Fin 2) = 0 :=
  (by decide +kernel : ∀ t : Fin grid1.N, _)
theorem index_G : ∀ t : Fin cfg1.N, win1_1.index t (0 : Fin 2) = t.val ∧ win1_1.index t (1 : Fin 2) = 0 :=
  (by decide +kernel : ∀ t : Fin grid1.N, _)
theorem index_wa : ∀ t : Fin cfg1.N, win1_2.index t (0 : Fin 2) = 0 ∧ win1_2.index t (1 : Fin 2) = 0 :=
  (by decide +kernel : ∀ t : Fin grid1.N, _)
theorem index_wb : ∀ t : Fin cfg1.N, win1_3.index t (0 : Fin 2) = 0 ∧ win1_3.index t (1 : Fin 2) = 0 :=
  (by decide +kernel : ∀ t : Fin grid1.N, _)
theorem index_nb0 : ∀ t : Fin cfg1.N, win1_4.index t (0 : Fin 2) = 0 ∧ win1_4.index t (1 : Fin 2) = 0 :=
  (by decide +kernel : ∀ t : Fin grid1.N, _)
theorem index_n1 : ∀ t : Fin cfg1.N, win1_5.index t (0 : Fin 2) = 0 ∧ win1_5.index t (1 : Fin 2) = 0 :=
  (by decide +kernel : ∀ t : Fin grid1.N, _)
theorem index_nb1 : ∀ t : Fin cfg1.N, win1_6.index t (0 : Fin 2) = 0 ∧ win1_6.index t (1 : Fin 2) = 0 :=
  (by decide +kernel : ∀ t : Fin grid1.N, _)
theorem index_node : ∀ t : Fin cfg1.N, win1_7.index t (0 : Fin 2) = t.val ∧ win1_7.index t (1 : Fin 2) = 0 :=
  (by decide +kernel : ∀ t : Fin grid1.N, _)

/-- Row `p` of the block of point `t` is node `5000 t + p`. -/
def nodeOf (t : Fin cfg1.N) (p : Fin 5000) : Fin 50000 :=
  ⟨t.val * 5000 + p.val, by have h : t.val < 10 := node_points ▸ t.isLt; have := p.isLt; omega⟩

/-- An element of the output block of point `t`: node `5000 t + p`, the same column. -/
theorem emb_node (t : Fin cfg1.N) (p : Fin 5000) (q : Fin 128) :
    ((cfg1.win 7).blk t).view.emb (ix2 p q) = (ix2 (nodeOf t p) q : S50000x128.Idx) := by
  obtain ⟨h0, h1⟩ := index_node t
  funext a; apply Fin.ext
  match a with
  | ⟨0, _⟩ => show win1_7.index t (0 : Fin 2) * 5000 + 1 * p.val = t.val * 5000 + p.val; omega
  | ⟨1, _⟩ => show win1_7.index t (1 : Fin 2) * 128 + 1 * q.val = q.val; omega

/-- The node-feature block at point `t` is rows `5000 t …` of the node features. -/
theorem read_X (c : Dev nD) (t : Fin cfg1.N) (p : Fin 5000) (q : Fin 128) :
    (iblk1 V c 0 t : Vec Ideal S5000x128 .f32) (ix2 p q) = (V c main_arg0 : Vec Ideal S50000x128 .f32) (ix2 (nodeOf t p) q) := by
  obtain ⟨h0, h1⟩ := index_X t
  unfold iblk1
  rw [View.read_apply]
  show V c main_arg0 (((cfg1.win 0).blk t).view.emb (ix2 p q)) = V c main_arg0 (ix2 (nodeOf t p) q)
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- The aggregated-message block. -/
theorem read_G (c : Dev nD) (t : Fin cfg1.N) (p : Fin 5000) (q : Fin 128) :
    (iblk1 V c 1 t : Vec Ideal S5000x128 .f32) (ix2 p q) = (V c main_v17 : Vec Ideal S50000x128 .f32) (ix2 (nodeOf t p) q) := by
  obtain ⟨h0, h1⟩ := index_G t
  unfold iblk1
  rw [View.read_apply]
  show V c main_v17 (((cfg1.win 1).blk t).view.emb (ix2 p q)) = V c main_v17 (ix2 (nodeOf t p) q)
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * q.val = q.val; omega

theorem read_wa (c : Dev nD) (t : Fin cfg1.N) :
    (iblk1 V c 2 t : Vec Ideal S128x128 .f32) = (V c main_v21 : Vec Ideal S128x128 .f32) := by
  obtain ⟨h0, h1⟩ := index_wa t
  funext y
  unfold iblk1
  rw [View.read_apply]
  show V c main_v21 (((cfg1.win 2).blk t).view.emb y) = V c main_v21 y
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem read_wb (c : Dev nD) (t : Fin cfg1.N) :
    (iblk1 V c 3 t : Vec Ideal S128x128 .f32) = (V c main_v22 : Vec Ideal S128x128 .f32) := by
  obtain ⟨h0, h1⟩ := index_wb t
  funext y
  unfold iblk1
  rw [View.read_apply]
  show V c main_v22 (((cfg1.win 3).blk t).view.emb y) = V c main_v22 y
  congr 1
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem read_nb0 (c : Dev nD) (t : Fin cfg1.N) :
    (iblk1 V c 4 t : Vec Ideal S1x128 .f32) = (V c main_v23 : Vec Ideal S1x128 .f32) := by
  obtain ⟨h0, h1⟩ := index_nb0 t
  funext y
  unfold iblk1
  rw [View.read_apply]
  show V c main_v23 (((cfg1.win 4).blk t).view.emb y) = V c main_v23 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem read_n1 (c : Dev nD) (t : Fin cfg1.N) :
    (iblk1 V c 5 t : Vec Ideal S128x128 .f32) = (V c main_arg8 : Vec Ideal S128x128 .f32) := by
  obtain ⟨h0, h1⟩ := index_n1 t
  funext y
  unfold iblk1
  rw [View.read_apply]
  show V c main_arg8 (((cfg1.win 5).blk t).view.emb y) = V c main_arg8 y
  congr 1
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem read_nb1 (c : Dev nD) (t : Fin cfg1.N) :
    (iblk1 V c 6 t : Vec Ideal S1x128 .f32) = (V c main_v24 : Vec Ideal S1x128 .f32) := by
  obtain ⟨h0, h1⟩ := index_nb1 t
  funext y
  unfold iblk1
  rw [View.read_apply]
  show V c main_v24 (((cfg1.win 6).blk t).view.emb y) = V c main_v24 y
  congr 1
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Point `t` writes back block `t` of the updated features of all nodes. -/
theorem flushed_node (c : Dev nD) (t : Fin cfg1.N) :
    (dat1 (F := Ideal) V c).flushed 7 t
      = ((cfg1.win 7).blk t).view.read (Elt Ideal)
          (NodeOut (n := 50000) (V c main_arg0) (V c main_v17) (V c main_v21) (V c main_v22) (V c main_v23) (V c main_arg8)
            (V c main_v24)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  rw [NodePayload.pay_node]
  rw [read_wa V c t, read_wb V c t, read_nb0 V c t, read_n1 V c t, read_nb1 V c t]
  refine funext fun (y : S5000x128.Idx) => ?_
  obtain ⟨p, q, rfl⟩ : ∃ (p : Fin 5000) (q : Fin 128), y = ix2 p q := ⟨y 0, y 1, eq_ix2 y⟩
  show NodeOut (n := 5000) (iblk1 V c 0 t) (iblk1 V c 1 t) (V c main_v21) (V c main_v22) (V c main_v23) (V c main_arg8) (V c main_v24)
        (ix2 p q)
      = NodeOut (n := 50000) (V c main_arg0) (V c main_v17) (V c main_v21) (V c main_v22) (V c main_v23) (V c main_arg8) (V c main_v24)
        (((cfg1.win 7).blk t).view.emb (ix2 p q))
  rw [emb_node t p q]
  exact NodeOut_rows (nodeOf t) (V c main_arg0) (V c main_v17) (iblk1 V c 0 t) (iblk1 V c 1 t) (V c main_v21) (V c main_v22)
    (V c main_v23) (V c main_arg8) (V c main_v24) (read_X V c t) (read_G V c t) p q

theorem mem_blk_node (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v25).slice (win1_7.rect t)).set ↔ _
  rw [View.set_slice_whole, Rect.mem_set_unit]
  exact Iff.rfl

/-- Node `r` is in the block of point `r / 5000`. -/
theorem cover_node (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < cfg1.N := by rw [node_points]; omega
  obtain ⟨h0, h1⟩ := index_node ⟨(i 0).val / 5000, ht⟩
  refine ⟨⟨(i 0).val / 5000, ht⟩, flush1_7 _, ?_⟩
  rw [mem_blk_node]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [h0]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [h1]
    omega

/-- The updated node features: output window 7 of the node kernel. -/
theorem final_node (c : Dev nD) :
    (dat1 (F := Ideal) V c).arrAt 7 cfg1.N
      = NodeOut (n := 50000) (V c main_arg0) (V c main_v17) (V c main_v21) (V c main_v22) (V c main_v23) (V c main_arg8) (V c main_v24) :=
  (dat1 (F := Ideal) V c).arrAt_eq_of_cover 7 _ (fun t _ => flushed_node V c t) cover_node

end Cert.KernelIdeal.Regions

end
-- ==== Proof.FoldArgs.lean ====
/-
  The argument buffers through the host stretches and the two regions.

  No host operation writes an argument buffer, and a region leaves every buffer that is not one of its arrays as it
  found it; so at every boundary of the program's segments an argument buffer still holds its launch contents.
  (Three arguments are themselves arrays of region 0; they are only followed up to that region's entry, which is all
  that is read of them.)
-/
import proofs.«410676_j8297876816265_1_alg».proof.Proof.Gen.KernelIdeal.Frame
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- No operation of the stretch writes the buffer: each operation's one result buffer is another. -/
local macro "unwritten" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The fifteen argument buffers. -/
def args : List (Ref sig .tc) :=
  [main_arg0, main_arg1, main_arg2, main_arg3, main_arg4, main_arg5, main_arg6, main_arg7, main_arg8, main_arg9, main_arg10,
   main_arg11, main_arg12, main_arg13, main_arg14]

/-- The arguments that are not arrays of region 0. -/
def argsLate : List (Ref sig .tc) :=
  [main_arg0, main_arg1, main_arg6, main_arg7, main_arg8, main_arg9, main_arg13, main_arg14]

theorem W1_arg (c : Dev nD) (b : Ref sig .tc) (hb : b ∈ args) :
    W1 m ρ c (Proc.devRef .tc b) = W0 m ρ c (Proc.devRef .tc b) := by
  simp only [args, List.mem_cons, List.not_mem_nil, or_false] at hb
  rcases hb with rfl | rfl | rfl | rfl | rfl | rfl | rfl | rfl | rfl | rfl | rfl | rfl | rfl | rfl | rfl <;> unwritten hostOps0

theorem W2_arg (c : Dev nD) (b : Ref sig .tc) (hb : b ∈ args) :
    W2 m ρ c (Proc.devRef .tc b) = W1 m ρ c (Proc.devRef .tc b) := by
  simp only [args, List.mem_cons, List.not_mem_nil, or_false] at hb
  rcases hb with rfl | rfl | rfl | rfl | rfl | rfl | rfl | rfl | rfl | rfl | rfl | rfl | rfl | rfl | rfl <;> unwritten hostOps0_1

theorem W3_arg (c : Dev nD) (b : Ref sig .tc) (hb : b ∈ args) :
    W3 m ρ c (Proc.devRef .tc b) = W2 m ρ c (Proc.devRef .tc b) := by
  simp only [args, List.mem_cons, List.not_mem_nil, or_false] at hb
  rcases hb with rfl | rfl | rfl | rfl | rfl | rfl | rfl | rfl | rfl | rfl | rfl | rfl | rfl | rfl | rfl <;> unwritten hostOps0_2

theorem W4_arg (c : Dev nD) (b : Ref sig .tc) (hb : b ∈ args) :
    W4 m ρ c (Proc.devRef .tc b) = W3 m ρ c (Proc.devRef .tc b) := by
  simp only [args, List.mem_cons, List.not_mem_nil, or_false] at hb
  rcases hb with rfl | rfl | rfl | rfl | rfl | rfl | rfl | rfl | rfl | rfl | rfl | rfl | rfl | rfl | rfl <;> unwritten hostOps0_3

theorem W5_arg (c : Dev nD) (b : Ref sig .tc) (hb : b ∈ args) :
    W5 m ρ c (Proc.devRef .tc b) = W4 m ρ c (Proc.devRef .tc b) := by
  simp only [args, List.mem_cons, List.not_mem_nil, or_false] at hb
  rcases hb with rfl | rfl | rfl | rfl | rfl | rfl | rfl | rfl | rfl | rfl | rfl | rfl | rfl | rfl | rfl <;> unwritten hostOps0_4

theorem W6_arg (c : Dev nD) (b : Ref sig .tc) (hb : b ∈ argsLate) :
    W6 m ρ c (Proc.devRef .tc b) = W5 m ρ c (Proc.devRef .tc b) := by
  simp only [argsLate, List.mem_cons, List.not_mem_nil, or_false] at hb
  rcases hb with rfl | rfl | rfl | rfl | rfl | rfl | rfl | rfl <;> exact W6_of_ne m ρ c _ (by decide)

theorem W7_arg (c : Dev nD) (b : Ref sig .tc) (hb : b ∈ argsLate) :
    W7 m ρ c (Proc.devRef .tc b) = W6 m ρ c (Proc.devRef .tc b) := by
  simp only [argsLate, List.mem_cons, List.not_mem_nil, or_false] at hb
  rcases hb with rfl | rfl | rfl | rfl | rfl | rfl | rfl | rfl <;> unwritten hostOps1

theorem args_of_late {b : Ref sig .tc} (hb : b ∈ argsLate) : b ∈ args := by
  simp only [argsLate, List.mem_cons, List.not_mem_nil, or_false] at hb
  rcases hb with rfl | rfl | rfl | rfl | rfl | rfl | rfl | rfl <;> simp [args]

/-! ## Each boundary's contents at an argument buffer are the launch contents -/

theorem W1_m (c : Dev nD) (b : Ref sig .tc) (hb : b ∈ args) : W1 m ρ c (Proc.devRef .tc b) = m ((c : Thread nD τ).loc b) :=
  W1_arg m ρ c b hb
theorem W2_m (c : Dev nD) (b : Ref sig .tc) (hb : b ∈ args) : W2 m ρ c (Proc.devRef .tc b) = m ((c : Thread nD τ).loc b) :=
  (W2_arg m ρ c b hb).trans (W1_m m ρ c b hb)
theorem W3_m (c : Dev nD) (b : Ref sig .tc) (hb : b ∈ args) : W3 m ρ c (Proc.devRef .tc b) = m ((c : Thread nD τ).loc b) :=
  (W3_arg m ρ c b hb).trans (W2_m m ρ c b hb)
theorem W4_m (c : Dev nD) (b : Ref sig .tc) (hb : b ∈ args) : W4 m ρ c (Proc.devRef .tc b) = m ((c : Thread nD τ).loc b) :=
  (W4_arg m ρ c b hb).trans (W3_m m ρ c b hb)
theorem W5_m (c : Dev nD) (b : Ref sig .tc) (hb : b ∈ args) : W5 m ρ c (Proc.devRef .tc b) = m ((c : Thread nD τ).loc b) :=
  (W5_arg m ρ c b hb).trans (W4_m m ρ c b hb)
theorem W6_m (c : Dev nD) (b : Ref sig .tc) (hb : b ∈ argsLate) : W6 m ρ c (Proc.devRef .tc b) = m ((c : Thread nD τ).loc b) :=
  (W6_arg m ρ c b hb).trans (W5_m m ρ c b (args_of_late hb))
theorem W7_m (c : Dev nD) (b : Ref sig .tc) (hb : b ∈ argsLate) : W7 m ρ c (Proc.devRef .tc b) = m ((c : Thread nD τ).loc b) :=
  (W7_arg m ρ c b hb).trans (W6_m m ρ c b hb)
/-- The positions, which the last host operation reads after region 1. -/
theorem W8_m_arg1 (c : Dev nD) : W8 m ρ c (Proc.devRef .tc main_arg1) = m ((c : Thread nD τ).loc main_arg1) :=
  (W8_of_ne m ρ c main_arg1 (by decide)).trans (W7_m m ρ c main_arg1 (by simp [argsLate]))

end Cert.KernelIdeal.Fold

end
-- ==== Proof.IndexRange.lean ====
/-
  The index inputs are rows of the 50000-row tables, and then a bounds-checked gather is the plain gather.

  The kernel's program gathers with a bounds check: it wraps a negative index once (`i + 50000` when `i < 0`),
  tests `0 ≤ w ≤ 49999` on the wrapped index `w`, and where the test fails puts a NaN in place of the gathered row.
  The precondition says every sender and receiver index `i` satisfies `0 ≤ i < 50000` (as signed 32-bit words).
  Then nothing is wrapped, the test holds on every row, and the select returns the gathered rows.
-/
import proofs.«410676_j8297876816265_1_alg».proof.Proof.Gen.KernelIdeal
import proofs.«410676_j8297876816265_1_alg».proof.Proof.Gen.Pre_finite_inputs
import Idealize.ShloMosaic.Lib.ReduceAll
import Idealize.ShloMosaic.PureOps.Ideal
import Idealize.ShloMosaic.Lib.StableHlo.Predicate

noncomputable section

namespace Cert.KernelIdeal.Take

open Cert.KernelIdeal Cert.KernelIdeal.Facts₀ Idealize.ShloMosaic Idealize.ShloMosaic.TcCoe

/-- An index word that names a row of a 50000-row table. -/
def InRange (w : BitVec 32) : Prop := 0 ≤ w.toInt ∧ w.toInt < 50000

/-- A negative index wrapped once, as a column of indices: the gather's index operand. -/
abbrev wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The bounds test `0 ≤ w ≤ 49999`, one bit per row. -/
abbrev inBounds (w : IVec S800000x1 32) : IVec S800000 1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-! ### Words -/

theorem toInt_zero : (0#32 : BitVec 32).toInt = 0 := by decide
theorem toInt_49999 : (49999#32 : BitVec 32).toInt = 49999 := by decide
theorem toInt_50000 : (50000#32 : BitVec 32).toInt = 50000 := by decide

/-- A word in range is not negative: the signed test `w < 0` fails. -/
theorem slt_zero_of_inRange {w : BitVec 32} (h : InRange w) : ¬ IntOp.cmpi .slt w 0#32 = 1#1 := by
  rw [IntOp.cmpi_slt, toInt_zero]; exact not_lt.2 h.1

/-- A word in range passes the bounds test `0 ≤ w ≤ 49999`. -/
theorem bounds_of_inRange {w : BitVec 32} (h : InRange w) :
    IntOp.andi (IntOp.cmpi .sge w 0#32) (IntOp.cmpi .sle w 49999#32) = 1#1 := by
  rw [IntOp.andi_eq_one, IntOp.cmpi_sge, IntOp.cmpi_sle, toInt_zero, toInt_49999]
  exact ⟨h.1, Int.lt_add_one_iff.1 h.2⟩

/-! ### Arrays -/

/-- Where no index is negative, wrapping the negative ones changes nothing. -/
theorem wrap_eq {s : Shape} (idx z c : IVec s 32) (hz : ∀ i, z i = 0#32) (h : ∀ i, InRange (idx i)) :
    select (cmpi .slt idx z) (addi idx c) idx = idx := by
  funext i
  show Scalar.select (IntOp.cmpi .slt (idx i) (z i)) (addi idx c i) (idx i) = idx i
  rw [hz]
  exact if_neg (slt_zero_of_inRange (h i))

/-- `and` folded from 1 over words that are all 1 is 1. -/
theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi 1#1 1#1 = 1#1 from by decide]
    exact foldl_andi_ones g hg l

/-- A reduction by `and`, from 1, of an array of ones is 1 at every index. -/
theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_ones x hx _

/-- A select whose mask is all ones returns its first operand. -/
theorem select_ones {s : Shape} {α : Type} (m : IVec s 1) (g f : s.Idx → α) (hm : ∀ j, m j = 1#1) :
    select m g f = g := by
  funext j
  show Scalar.select (m j) (g j) (f j) = g j
  rw [hm]
  exact if_pos rfl

/-- With every index in range, the wrapped index column holds the indices themselves. -/
theorem wrapIdx_inRange (idx : IVec S800000 32) (h : ∀ i, InRange (idx i)) (k : S800000x1.Idx) :
    InRange (wrapIdx idx k) := by
  have e : wrapIdx idx = broadcastInDim S800000x1 ![0] bcast_S800000_S800000x1_0 idx :=
    congrArg _ (wrap_eq idx _ _ (fun _ => rfl) h)
  rw [e]
  exact h _

/-- With every index in range, the bounds test is 1 on every row. -/
theorem inBounds_wrapIdx (idx : IVec S800000 32) (h : ∀ i, InRange (idx i)) (j : S800000.Idx) :
    inBounds (wrapIdx idx) j = 1#1 := by
  refine reduce_andi_ones _ _ _ _ (fun k => ?_) (fun _ => rfl) j
  show IntOp.andi (IntOp.cmpi .sge (wrapIdx idx k) 0#32) (IntOp.cmpi .sle (wrapIdx idx k) 49999#32) = 1#1
  exact bounds_of_inRange (wrapIdx_inRange idx h k)

/-- `jnp.all (0 ≤ a ∧ a < 50000)`, read back at one element. -/
theorem inRange_of_all {s t u : Shape} {axes : List (Fin s.rank)} [Subsingleton t.Idx] (a z c : IVec s 32) (init : IVec u 1)
    (hr : s.ReducesTo axes t) (hu : 0 < u.numel) (j : t.Idx)
    (e : Host.reduce IntOp.andi (andi (cmpi .sge a z) (cmpi .slt a c)) init hr hu j = 1#1)
    (hz : ∀ i, z i = 0#32) (hc : ∀ i, c i = 50000#32) (i : s.Idx) : InRange (a i) := by
  have hi : IntOp.andi (IntOp.cmpi .sge (a i) (z i)) (IntOp.cmpi .slt (a i) (c i)) = 1#1 :=
    Host.reduce_andi_all _ init hr hu j e i
  obtain ⟨h1, h2⟩ := IntOp.andi_eq_one.1 hi
  rw [hz, IntOp.cmpi_sge, toInt_zero] at h1
  rw [hc, IntOp.cmpi_slt, toInt_50000] at h2
  exact ⟨h1, h2⟩

/-- The precondition gives both index arrays in range. -/
theorem range_of_pre (a0 : FVec Ideal Cert.Pre_finite_inputs.S50000x128 .f32) (a1 : FVec Ideal Cert.Pre_finite_inputs.S50000x3 .f32) (a2 : FVec Ideal Cert.Pre_finite_inputs.S257x128 .f32) (a3 : FVec Ideal Cert.Pre_finite_inputs.S128 .f32) (a4 : FVec Ideal Cert.Pre_finite_inputs.S128x128 .f32) (a5 : FVec Ideal Cert.Pre_finite_inputs.S128 .f32) (a6 : FVec Ideal Cert.Pre_finite_inputs.S256x128 .f32) (a7 : FVec Ideal Cert.Pre_finite_inputs.S128 .f32) (a8 : FVec Ideal Cert.Pre_finite_inputs.S128x128 .f32) (a9 : FVec Ideal Cert.Pre_finite_inputs.S128 .f32) (a10 : FVec Ideal Cert.Pre_finite_inputs.S128x128 .f32) (a11 : FVec Ideal Cert.Pre_finite_inputs.S128 .f32) (a12 : FVec Ideal Cert.Pre_finite_inputs.S128x1 .f32) (a13 : IVec Cert.Pre_finite_inputs.S800000 32) (a14 : IVec Cert.Pre_finite_inputs.S800000 32)
    (h : Cert.Pre_finite_inputs.fn (F := Ideal) a0 a1 a2 a3 a4 a5 a6 a7 a8 a9 a10 a11 a12 a13 a14 = fun _ => 1#1) :
    (∀ i, InRange (a13 i)) ∧ ∀ i, InRange (a14 i) := by
  haveI : Subsingleton Cert.Pre_finite_inputs.S_.Idx := ⟨fun a b => funext fun d => d.elim0⟩
  -- the result is `(… ∧ all (senders in range)) ∧ all (receivers in range)`
  obtain ⟨h70, h76⟩ := IntOp.andi_eq_one.1 (congrFun h (fun d => d.elim0))
  obtain ⟨-, h69⟩ := IntOp.andi_eq_one.1 h70
  exact ⟨inRange_of_all a13 _ _ _ _ _ _ h69 (fun _ => rfl) (fun _ => rfl),
    inRange_of_all a14 _ _ _ _ _ _ h76 (fun _ => rfl) (fun _ => rfl)⟩

/-- In range, the bounds-checked gather of 128-column rows is the gather. -/
theorem take128_eq (x : FVec Ideal S50000x128 .f32) (idx : IVec S800000 32) (h : ∀ i, InRange (idx i)) :
    select (broadcastInDim S800000x128 ![0] bcast_S800000_S800000x128_0 (inBounds (wrapIdx idx)))
        (Host.gather gather_S50000x128_S800000x1_S800000x128_1_0_n_n_0_1_1128 x (wrapIdx idx))
        (broadcastInDim S800000x128 ![] bcast_S_S800000x128 (constant S_ .f32 0x7FC00000#32))
      = Host.gather gather_S50000x128_S800000x1_S800000x128_1_0_n_n_0_1_1128 x (wrapIdx idx) :=
  select_ones _ _ _ fun _ => inBounds_wrapIdx idx h _

/-- In range, the bounds-checked gather of 3-column rows is the gather. -/
theorem take3_eq (x : FVec Ideal S50000x3 .f32) (idx : IVec S800000 32) (h : ∀ i, InRange (idx i)) :
    select (broadcastInDim S800000x3 ![0] bcast_S800000_S800000x3_0 (inBounds (wrapIdx idx)))
        (Host.gather gather_S50000x3_S800000x1_S800000x3_1_0_n_n_0_1_13 x (wrapIdx idx))
        (broadcastInDim S800000x3 ![] bcast_S_S800000x3 (constant S_ .f32 0x7FC00000#32))
      = Host.gather gather_S50000x3_S800000x1_S800000x3_1_0_n_n_0_1_13 x (wrapIdx idx) :=
  select_ones _ _ _ fun _ => inBounds_wrapIdx idx h _

end Cert.KernelIdeal.Take

end
-- ==== Proof.HostTerms.lean ====
/-
  The launch arrays at their literal types, and the host-side terms of the layer.

  Outside its two kernels the program gathers the sender and receiver rows of the features and of the positions,
  takes the squared length of each position difference, and after the edge kernel adds every edge's message into
  its receiver's row and every edge's translation into its sender's row. The gathers come in two forms: with the
  bounds check the kernel's program carries (a NaN row where the wrapped index is out of range) and plain.
-/
import proofs.«410676_j8297876816265_1_alg».proof.Proof.IndexRange

noncomputable section

namespace Cert.KernelIdeal.Terms

open Cert.KernelIdeal Cert.KernelIdeal.Facts₀ Idealize.ShloMosaic Idealize.ShloMosaic.TcCoe Idealize.SL.Sem

/-! ## The launch arrays -/

section Launch

variable (m : (ℓ : Loc nD τ sig) → Buf (Elt Ideal) ℓ)

abbrev nodesA (c : Dev nD) : FVec Ideal S50000x128 .f32 := m ((c : Thread nD τ).loc main_arg0)
abbrev posA (c : Dev nD) : FVec Ideal S50000x3 .f32 := m ((c : Thread nD τ).loc main_arg1)
abbrev ew0A (c : Dev nD) : FVec Ideal S257x128 .f32 := m ((c : Thread nD τ).loc main_arg2)
abbrev eb0A (c : Dev nD) : FVec Ideal S128 .f32 := m ((c : Thread nD τ).loc main_arg3)
abbrev ew1A (c : Dev nD) : FVec Ideal S128x128 .f32 := m ((c : Thread nD τ).loc main_arg4)
abbrev eb1A (c : Dev nD) : FVec Ideal S128 .f32 := m ((c : Thread nD τ).loc main_arg5)
abbrev nw0A (c : Dev nD) : FVec Ideal S256x128 .f32 := m ((c : Thread nD τ).loc main_arg6)
abbrev nb0A (c : Dev nD) : FVec Ideal S128 .f32 := m ((c : Thread nD τ).loc main_arg7)
abbrev nw1A (c : Dev nD) : FVec Ideal S128x128 .f32 := m ((c : Thread nD τ).loc main_arg8)
abbrev nb1A (c : Dev nD) : FVec Ideal S128 .f32 := m ((c : Thread nD τ).loc main_arg9)
abbrev pw0A (c : Dev nD) : FVec Ideal S128x128 .f32 := m ((c : Thread nD τ).loc main_arg10)
abbrev pb0A (c : Dev nD) : FVec Ideal S128 .f32 := m ((c : Thread nD τ).loc main_arg11)
abbrev pw1A (c : Dev nD) : FVec Ideal S128x1 .f32 := m ((c : Thread nD τ).loc main_arg12)
abbrev sndA (c : Dev nD) : IVec S800000 32 := m ((c : Thread nD τ).loc main_arg13)
abbrev rcvA (c : Dev nD) : IVec S800000 32 := m ((c : Thread nD τ).loc main_arg14)

end Launch

/-! ## Gathers -/

/-- Rows of the feature table at the wrapped indices. -/
abbrev gath128 (x : FVec Ideal S50000x128 .f32) (idx : IVec S800000 32) : FVec Ideal S800000x128 .f32 :=
  Host.gather gather_S50000x128_S800000x1_S800000x128_1_0_n_n_0_1_1128 x (Take.wrapIdx idx)

/-- Rows of the position table at the wrapped indices. -/
abbrev gath3 (x : FVec Ideal S50000x3 .f32) (idx : IVec S800000 32) : FVec Ideal S800000x3 .f32 :=
  Host.gather gather_S50000x3_S800000x1_S800000x3_1_0_n_n_0_1_13 x (Take.wrapIdx idx)

/-- The same rows with the bounds check: a NaN row where the wrapped index is out of range. -/
abbrev take128 (x : FVec Ideal S50000x128 .f32) (idx : IVec S800000 32) : FVec Ideal S800000x128 .f32 :=
  select (broadcastInDim S800000x128 ![0] bcast_S800000_S800000x128_0 (Take.inBounds (Take.wrapIdx idx)))
    (Host.gather gather_S50000x128_S800000x1_S800000x128_1_0_n_n_0_1_1128 x (Take.wrapIdx idx))
    (broadcastInDim S800000x128 ![] bcast_S_S800000x128 (constant (F := Ideal) S_ .f32 0x7FC00000#32))

abbrev take3 (x : FVec Ideal S50000x3 .f32) (idx : IVec S800000 32) : FVec Ideal S800000x3 .f32 :=
  select (broadcastInDim S800000x3 ![0] bcast_S800000_S800000x3_0 (Take.inBounds (Take.wrapIdx idx)))
    (Host.gather gather_S50000x3_S800000x1_S800000x3_1_0_n_n_0_1_13 x (Take.wrapIdx idx))
    (broadcastInDim S800000x3 ![] bcast_S_S800000x3 (constant (F := Ideal) S_ .f32 0x7FC00000#32))

/-- With every index a row of the table the check passes everywhere. -/
theorem take128_gath (x : FVec Ideal S50000x128 .f32) (idx : IVec S800000 32) (h : ∀ i, Take.InRange (idx i)) :
    take128 x idx = gath128 x idx := Take.take128_eq x idx h

theorem take3_gath (x : FVec Ideal S50000x3 .f32) (idx : IVec S800000 32) (h : ∀ i, Take.InRange (idx i)) :
    take3 x idx = gath3 x idx := Take.take3_eq x idx h

/-! ## The squared length of each row of a three-column array, as a column -/

abbrev sqLen (d : FVec Ideal S800000x3 .f32) : FVec Ideal S800000x1 .f32 :=
  broadcastInDim S800000x1 ![0] bcast_S800000_S800000x1_0
    (Host.reduceAdd (mulf d d) (constant (F := Ideal) S_ .f32 0x00000000#32) reducesTo_S800000x3_S800000_d1 h_S_)

/-! ## Adding the edges' rows into the nodes' rows -/

abbrev zeros128 : FVec Ideal S50000x128 .f32 :=
  broadcastInDim S50000x128 ![] bcast_S_S50000x128 (constant (F := Ideal) S_ .f32 0x00000000#32)

abbrev zeros3 : FVec Ideal S50000x3 .f32 :=
  broadcastInDim S50000x3 ![] bcast_S_S50000x3 (constant (F := Ideal) S_ .f32 0x00000000#32)

/-- An index array as a column. -/
abbrev col (idx : IVec S800000 32) : IVec S800000x1 32 :=
  broadcastInDim S800000x1 ![0] bcast_S800000_S800000x1_0 idx

/-- Row `idx e` of the result is the sum of the rows `e` of `M` sent there. -/
abbrev agg128 (idx : IVec S800000 32) (M : FVec Ideal S800000x128 .f32) : FVec Ideal S50000x128 .f32 :=
  Host.scatterAdd scatter_S50000x128_S800000x1_S800000x128_1_0_0_1 zeros128 (col idx) M

abbrev agg3 (idx : IVec S800000 32) (T : FVec Ideal S800000x3 .f32) : FVec Ideal S50000x3 .f32 :=
  Host.scatterAdd scatter_S50000x3_S800000x1_S800000x3_1_0_0_1 zeros3 (col idx) T

end Cert.KernelIdeal.Terms

end
-- ==== Proof.FoldGather.lean ====
/-
  The four gathers before the edge kernel.

  Each is a stretch of twenty-three host operations: wrap a negative index once, test the wrapped index against the
  table's bounds, gather the rows, and put a NaN row where the test fails. Its one result that the program reads
  afterwards is the bounds-checked gather of the table at the index array.
-/
import proofs.«410676_j8297876816265_1_alg».proof.Proof.FoldArgs
import proofs.«410676_j8297876816265_1_alg».proof.Proof.HostTerms
import Idealize.ShloMosaic.Lib.StableHlo.Run

set_option maxRecDepth 16384

noncomputable section

namespace Cert.KernelIdeal.Fold

open Cert.KernelIdeal Cert.KernelIdeal.Gen Cert.KernelIdeal.Terms Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Contents at a value's type and at its buffer's type

An operation of these stretches takes its operands' contents from their buffers' types to the values' types, applies
its function, and takes the result back. The two transports along one buffer's type equation cancel; and at a literal
buffer, whose type equation holds by computation, a transport is the identity. -/

/-- A value moved to its buffer's type and back is the value. -/
private theorem ofBuf_toBuf {T : BufTy} (x : TRef sig T) (v : T.Contents (Elt Ideal)) : x.ofBuf (x.toBuf v) = v := by
  unfold TRef.ofBuf TRef.toBuf; simp

private theorem ofBuf_v0 (v : FVec Ideal S800000x128 .f32) :
    TRef.ofBuf (Val := Elt Ideal) (TRef.of main_v0 : TRef sig ⟨S800000x128, .f32⟩) v = v := rfl
private theorem ofBuf_v1 (v : FVec Ideal S800000x128 .f32) :
    TRef.ofBuf (Val := Elt Ideal) (TRef.of main_v1 : TRef sig ⟨S800000x128, .f32⟩) v = v := rfl
private theorem ofBuf_v2 (v : FVec Ideal S800000x3 .f32) :
    TRef.ofBuf (Val := Elt Ideal) (TRef.of main_v2 : TRef sig ⟨S800000x3, .f32⟩) v = v := rfl
private theorem ofBuf_v3 (v : FVec Ideal S800000x3 .f32) :
    TRef.ofBuf (Val := Elt Ideal) (TRef.of main_v3 : TRef sig ⟨S800000x3, .f32⟩) v = v := rfl

/-! ## Each stretch from any contents

From any contents `V` of the buffers, the stretch leaves at its last result buffer the bounds-checked gather of what
`V` holds at the table's buffer, at what `V` holds at the index buffer: every operation's result is its function at
its operands' results, and composed in the program's order they are the term `take128` (`take3`) names. -/

section Stretch

variable (V : Valuation τ sig (Elt Ideal))

private theorem take_call0 (x : FVec Ideal S50000x128 .f32) (i : IVec S800000 32)
    (hx : (TRef.of main_arg0 : TRef sig ⟨S50000x128, .f32⟩).ofBuf (V (Proc.devRef .tc main_arg0)) = x)
    (hi : (TRef.of main_arg13 : TRef sig ⟨S800000, .i32⟩).ofBuf (V (Proc.devRef .tc main_arg13)) = i) :
    (TRef.of main_v0 : TRef sig ⟨S800000x128, .f32⟩).ofBuf (after (hostOps0 (F := Ideal)) V (Proc.devRef .tc main_v0))
      = take128 x i := by
  subst hx hi
  dsimp only [hostOps0, main_call0_call0]; after_results_simp; simp only [ofBuf_toBuf]

private theorem take_call1 (x : FVec Ideal S50000x128 .f32) (i : IVec S800000 32)
    (hx : (TRef.of main_arg0 : TRef sig ⟨S50000x128, .f32⟩).ofBuf (V (Proc.devRef .tc main_arg0)) = x)
    (hi : (TRef.of main_arg14 : TRef sig ⟨S800000, .i32⟩).ofBuf (V (Proc.devRef .tc main_arg14)) = i) :
    (TRef.of main_v1 : TRef sig ⟨S800000x128, .f32⟩).ofBuf (after (hostOps0_1 (F := Ideal)) V (Proc.devRef .tc main_v1))
      = take128 x i := by
  subst hx hi
  dsimp only [hostOps0_1, main_call1_call0]; after_results_simp; simp only [ofBuf_toBuf]

private theorem take_call2 (x : FVec Ideal S50000x3 .f32) (i : IVec S800000 32)
    (hx : (TRef.of main_arg1 : TRef sig ⟨S50000x3, .f32⟩).ofBuf (V (Proc.devRef .tc main_arg1)) = x)
    (hi : (TRef.of main_arg13 : TRef sig ⟨S800000, .i32⟩).ofBuf (V (Proc.devRef .tc main_arg13)) = i) :
    (TRef.of main_v2 : TRef sig ⟨S800000x3, .f32⟩).ofBuf (after (hostOps0_2 (F := Ideal)) V (Proc.devRef .tc main_v2))
      = take3 x i := by
  subst hx hi
  dsimp only [hostOps0_2, main_call2_call0]; after_results_simp; simp only [ofBuf_toBuf]

private theorem take_call3 (x : FVec Ideal S50000x3 .f32) (i : IVec S800000 32)
    (hx : (TRef.of main_arg1 : TRef sig ⟨S50000x3, .f32⟩).ofBuf (V (Proc.devRef .tc main_arg1)) = x)
    (hi : (TRef.of main_arg14 : TRef sig ⟨S800000, .i32⟩).ofBuf (V (Proc.devRef .tc main_arg14)) = i) :
    (TRef.of main_v3 : TRef sig ⟨S800000x3, .f32⟩).ofBuf (after (hostOps0_3 (F := Ideal)) V (Proc.devRef .tc main_v3))
      = take3 x i := by
  subst hx hi
  dsimp only [hostOps0_3, main_call3_call0]; after_results_simp; simp only [ofBuf_toBuf]

end Stretch

/-! ## The four results

Each stretch starts from the contents the one before it leaves, where the table and the index array, being arguments,
still hold their launch contents. -/

/-- Sender rows of the features. -/
theorem W1_v0 (c : Dev nD) :
    (W1 m ρ c (Proc.devRef .tc main_v0) : FVec Ideal S800000x128 .f32) = take128 (nodesA m c) (sndA m c) :=
  (ofBuf_v0 _).symm.trans (take_call0 (W0 m ρ c) _ _ rfl rfl)

/-- Receiver rows of the features. -/
theorem W2_v1 (c : Dev nD) :
    (W2 m ρ c (Proc.devRef .tc main_v1) : FVec Ideal S800000x128 .f32) = take128 (nodesA m c) (rcvA m c) :=
  (ofBuf_v1 _).symm.trans (take_call1 (W1 m ρ c) _ _
    (W1_m m ρ c main_arg0 (by simp [args])) (W1_m m ρ c main_arg14 (by simp [args])))

/-- Sender rows of the positions. -/
theorem W3_v2 (c : Dev nD) :
    (W3 m ρ c (Proc.devRef .tc main_v2) : FVec Ideal S800000x3 .f32) = take3 (posA m c) (sndA m c) :=
  (ofBuf_v2 _).symm.trans (take_call2 (W2 m ρ c) _ _
    (W2_m m ρ c main_arg1 (by simp [args])) (W2_m m ρ c main_arg13 (by simp [args])))

/-- Receiver rows of the positions. -/
theorem W4_v3 (c : Dev nD) :
    (W4 m ρ c (Proc.devRef .tc main_v3) : FVec Ideal S800000x3 .f32) = take3 (posA m c) (rcvA m c) :=
  (ofBuf_v3 _).symm.trans (take_call3 (W3 m ρ c) _ _
    (W3_m m ρ c main_arg1 (by simp [args])) (W3_m m ρ c main_arg14 (by simp [args])))

end Cert.KernelIdeal.Fold

end
-- ==== Proof.FoldEdgeEntry.lean ====
/-
  What the edge kernel finds in its thirteen input arrays.

  The gathered feature rows, the position difference and its squared length as a column, the three row ranges of
  the first edge weight (rows 0–127, 128–255 and row 256), the three biases as one-row arrays, and three weights
  that are arguments of the program.
-/
import proofs.«410676_j8297876816265_1_alg».proof.Proof.FoldGather
import proofs.«410676_j8297876816265_1_alg».proof.Proof.Spec
import Idealize.ShloMosaic.Lib.ValueIdx
import Idealize.ShloMosaic.Lib.Pipeline.Value

set_option maxRecDepth 16384

noncomputable section

namespace Cert.KernelIdeal.Fold

open Cert.KernelIdeal Cert.KernelIdeal.Gen Cert.KernelIdeal.Terms Idealize.ShloMosaic Idealize.ShloMosaic.TcCoe Idealize.SL.Sem
open Idealize.ShloMosaic.StableHlo Cert.Egnn Idealize.ShloMosaic.ValueIdx

variable (m : (ℓ : Loc nD τ sig) → Buf (Elt Ideal) ℓ) (ρ : Dev nD → PrngReg)

/-- The position difference of each edge. -/
abbrev posDiff (c : Dev nD) : FVec Ideal S800000x3 .f32 := subf (take3 (posA m c) (sndA m c)) (take3 (posA m c) (rcvA m c))

/-- No operation of the stretch writes the buffer: each operation's one result buffer is another. -/
local macro "unwritten" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Two layout operations read at an index -/

/-- A two-axis array cut along its rows from row `o` reads, at `(k, j)`, the source at `(k', j)` with `k' = o + k`. -/
theorem edgeEntry_rowSlice_apply {α : Type} {n r w : ℕ} (o : ℕ) (X : (⟨2, ![n, w]⟩ : Shape).Idx → α)
    (h : (⟨2, ![n, w]⟩ : Shape).Slices ![o, 0] ⟨2, ![r, w]⟩) (k : Fin r) (j : Fin w) (k' : Fin n) (hk : k'.val = o + k.val) :
    extractStridedSlice ⟨2, ![r, w]⟩ ![o, 0] X h (ix2 k j) = X (ix2 k' j) :=
  extractStridedSlice_apply _ _ _ _ _ (fun ax => by
    match ax with
    | ⟨0, _⟩ => exact hk
    | ⟨1, _⟩ => exact (Nat.zero_add _).symm)

/-- A vector laid out as a one-row array reads, at `(0, i)`, the vector's element `i`. -/
theorem edgeEntry_vecAsRow_apply {α : Type} {a : ℕ} (x : (⟨1, ![a]⟩ : Shape).Idx → α)
    (h : (⟨1, ![a]⟩ : Shape).ShapeCasts ⟨2, ![1, a]⟩) (i : Fin a) :
    shapeCast ⟨2, ![1, a]⟩ x h (ix2 (0 : Fin 1) i) = x (ix1 i) :=
  shapeCast_apply x h _ _ (by
    rw [Shape.rowMajor_val_two, Shape.rowMajor_val_one]
    show i.val = 0 * a + i.val
    rw [Nat.zero_mul, Nat.zero_add])

/-! ## What the last stretch before the edge kernel computes, from any contents -/

section LastStretch

variable (V : Valuation τ sig (Elt Ideal))

/-- The difference of the two gathered position arrays. -/
theorem hostOps0_4_v4 :
    (after hostOps0_4 V (Proc.devRef .tc main_v4) : FVec Ideal S800000x3 .f32)
      = (subf (V (Proc.devRef .tc main_v2)) (V (Proc.devRef .tc main_v3)) : FVec Ideal S800000x3 .f32) := by
  dsimp only [hostOps0_4]
  after_results_simp <;> rfl

/-- The squared length of each row of that difference, as a column. -/
theorem hostOps0_4_v7 :
    (after hostOps0_4 V (Proc.devRef .tc main_v7) : FVec Ideal S800000x1 .f32)
      = sqLen (subf (V (Proc.devRef .tc main_v2)) (V (Proc.devRef .tc main_v3)) : FVec Ideal S800000x3 .f32) := by
  dsimp only [hostOps0_4]
  after_results_simp <;> rfl

/-- Three row ranges of the first edge weight. -/
theorem hostOps0_4_v8 :
    (after hostOps0_4 V (Proc.devRef .tc main_v8) : FVec Ideal S128x128 .f32)
      = extractStridedSlice S128x128 ![0, 0] (V (Proc.devRef .tc main_arg2) : FVec Ideal S257x128 .f32)
          slices_S257x128_S128x128_0_0 := by
  dsimp only [hostOps0_4]
  after_results_simp <;> rfl

theorem hostOps0_4_v9 :
    (after hostOps0_4 V (Proc.devRef .tc main_v9) : FVec Ideal S128x128 .f32)
      = extractStridedSlice S128x128 ![128, 0] (V (Proc.devRef .tc main_arg2) : FVec Ideal S257x128 .f32)
          slices_S257x128_S128x128_128_0 := by
  dsimp only [hostOps0_4]
  after_results_simp <;> rfl

theorem hostOps0_4_v10 :
    (after hostOps0_4 V (Proc.devRef .tc main_v10) : FVec Ideal S1x128 .f32)
      = extractStridedSlice S1x128 ![256, 0] (V (Proc.devRef .tc main_arg2) : FVec Ideal S257x128 .f32)
          slices_S257x128_S1x128_256_0 := by
  dsimp only [hostOps0_4]
  after_results_simp <;> rfl

/-- Three vectors laid out as one-row arrays. -/
theorem hostOps0_4_v11 :
    (after hostOps0_4 V (Proc.devRef .tc main_v11) : FVec Ideal S1x128 .f32)
      = shapeCast S1x128 (V (Proc.devRef .tc main_arg3) : FVec Ideal S128 .f32) shapeCasts_S128_S1x128 := by
  dsimp only [hostOps0_4]
  after_results_simp <;> rfl

theorem hostOps0_4_v12 :
    (after hostOps0_4 V (Proc.devRef .tc main_v12) : FVec Ideal S1x128 .f32)
      = shapeCast S1x128 (V (Proc.devRef .tc main_arg5) : FVec Ideal S128 .f32) shapeCasts_S128_S1x128 := by
  dsimp only [hostOps0_4]
  after_results_simp <;> rfl

theorem hostOps0_4_v13 :
    (after hostOps0_4 V (Proc.devRef .tc main_v13) : FVec Ideal S1x128 .f32)
      = shapeCast S1x128 (V (Proc.devRef .tc main_arg11) : FVec Ideal S128 .f32) shapeCasts_S128_S1x128 := by
  dsimp only [hostOps0_4]
  after_results_simp <;> rfl

end LastStretch

/-! ## The gathered rows: written by one gather, left alone by every later operation -/

theorem V5_v0 (c : Dev nD) : (V5 m ρ c main_v0 : FVec Ideal S800000x128 .f32) = take128 (nodesA m c) (sndA m c) := by
  have h5 : W5 m ρ c (Proc.devRef .tc main_v0) = W4 m ρ c (Proc.devRef .tc main_v0) := by unwritten hostOps0_4
  have h4 : W4 m ρ c (Proc.devRef .tc main_v0) = W3 m ρ c (Proc.devRef .tc main_v0) := by unwritten hostOps0_3
  have h3 : W3 m ρ c (Proc.devRef .tc main_v0) = W2 m ρ c (Proc.devRef .tc main_v0) := by unwritten hostOps0_2
  have h2 : W2 m ρ c (Proc.devRef .tc main_v0) = W1 m ρ c (Proc.devRef .tc main_v0) := by unwritten hostOps0_1
  exact (h5.trans (h4.trans (h3.trans h2))).trans (W1_v0 m ρ c)

theorem V5_v1 (c : Dev nD) : (V5 m ρ c main_v1 : FVec Ideal S800000x128 .f32) = take128 (nodesA m c) (rcvA m c) := by
  have h5 : W5 m ρ c (Proc.devRef .tc main_v1) = W4 m ρ c (Proc.devRef .tc main_v1) := by unwritten hostOps0_4
  have h4 : W4 m ρ c (Proc.devRef .tc main_v1) = W3 m ρ c (Proc.devRef .tc main_v1) := by unwritten hostOps0_3
  have h3 : W3 m ρ c (Proc.devRef .tc main_v1) = W2 m ρ c (Proc.devRef .tc main_v1) := by unwritten hostOps0_2
  exact (h5.trans (h4.trans h3)).trans (W2_v1 m ρ c)

/-- The sender rows of the positions, as the last stretch finds them. -/
theorem edgeEntry_v2 (c : Dev nD) :
    (W4 m ρ c (Proc.devRef .tc main_v2) : FVec Ideal S800000x3 .f32) = take3 (posA m c) (sndA m c) := by
  have h4 : W4 m ρ c (Proc.devRef .tc main_v2) = W3 m ρ c (Proc.devRef .tc main_v2) := by unwritten hostOps0_3
  exact h4.trans (W3_v2 m ρ c)

/-! ## The position difference and its squared length -/

theorem V5_v4 (c : Dev nD) : (V5 m ρ c main_v4 : FVec Ideal S800000x3 .f32) = posDiff m c := by
  refine (hostOps0_4_v4 (W4 m ρ c)).trans ?_
  rw [edgeEntry_v2, W4_v3]

theorem V5_v7 (c : Dev nD) : (V5 m ρ c main_v7 : FVec Ideal S800000x1 .f32) = sqLen (posDiff m c) := by
  refine (hostOps0_4_v7 (W4 m ρ c)).trans ?_
  rw [edgeEntry_v2, W4_v3]

/-! ## The three row ranges of the first edge weight -/

/-- The first edge weight, as the last stretch finds it. -/
theorem edgeEntry_ew0 (c : Dev nD) : (W4 m ρ c (Proc.devRef .tc main_arg2) : FVec Ideal S257x128 .f32) = ew0A m c :=
  W4_m m ρ c main_arg2 (by simp [args])

/-- Rows 0–127 of the first edge weight. -/
theorem V5_v8_at (c : Dev nD) (k j : Fin 128) :
    (V5 m ρ c main_v8 : Mat 128 128) (ix2 k j) = ew0A m c (ix2 ⟨k.val, by omega⟩ j) := by
  refine (congrFun (hostOps0_4_v8 (W4 m ρ c)) (ix2 k j)).trans ?_
  rw [edgeEntry_ew0]
  exact edgeEntry_rowSlice_apply 0 (ew0A m c) _ k j ⟨k.val, by omega⟩ (Nat.zero_add _).symm

/-- Rows 128–255. -/
theorem V5_v9_at (c : Dev nD) (k j : Fin 128) :
    (V5 m ρ c main_v9 : Mat 128 128) (ix2 k j) = ew0A m c (ix2 ⟨128 + k.val, by omega⟩ j) := by
  refine (congrFun (hostOps0_4_v9 (W4 m ρ c)) (ix2 k j)).trans ?_
  rw [edgeEntry_ew0]
  exact edgeEntry_rowSlice_apply 128 (ew0A m c) _ k j ⟨128 + k.val, by omega⟩ rfl

/-- Row 256. -/
theorem V5_v10_at (c : Dev nD) (j : Fin 128) :
    (V5 m ρ c main_v10 : Mat 1 128) (ix2 0 j) = ew0A m c (ix2 ⟨256, by omega⟩ j) := by
  refine (congrFun (hostOps0_4_v10 (W4 m ρ c)) (ix2 0 j)).trans ?_
  rw [edgeEntry_ew0]
  exact edgeEntry_rowSlice_apply 256 (ew0A m c) _ (0 : Fin 1) j ⟨256, by omega⟩ rfl

/-! ## The three biases as one-row arrays -/

theorem V5_v11_at (c : Dev nD) (j : Fin 128) : (V5 m ρ c main_v11 : Mat 1 128) (ix2 0 j) = eb0A m c (ix1 j) := by
  refine (congrFun (hostOps0_4_v11 (W4 m ρ c)) (ix2 0 j)).trans ?_
  rw [show (W4 m ρ c (Proc.devRef .tc main_arg3) : FVec Ideal S128 .f32) = eb0A m c from
    W4_m m ρ c main_arg3 (by simp [args])]
  exact edgeEntry_vecAsRow_apply (eb0A m c) _ j

theorem V5_v12_at (c : Dev nD) (j : Fin 128) : (V5 m ρ c main_v12 : Mat 1 128) (ix2 0 j) = eb1A m c (ix1 j) := by
  refine (congrFun (hostOps0_4_v12 (W4 m ρ c)) (ix2 0 j)).trans ?_
  rw [show (W4 m ρ c (Proc.devRef .tc main_arg5) : FVec Ideal S128 .f32) = eb1A m c from
    W4_m m ρ c main_arg5 (by simp [args])]
  exact edgeEntry_vecAsRow_apply (eb1A m c) _ j

theorem V5_v13_at (c : Dev nD) (j : Fin 128) : (V5 m ρ c main_v13 : Mat 1 128) (ix2 0 j) = pb0A m c (ix1 j) := by
  refine (congrFun (hostOps0_4_v13 (W4 m ρ c)) (ix2 0 j)).trans ?_
  rw [show (W4 m ρ c (Proc.devRef .tc main_arg11) : FVec Ideal S128 .f32) = pb0A m c from
    W4_m m ρ c main_arg11 (by simp [args])]
  exact edgeEntry_vecAsRow_apply (pb0A m c) _ j

/-! ## The three weights that are arguments of the program -/

theorem V5_arg4 (c : Dev nD) : (V5 m ρ c main_arg4 : FVec Ideal S128x128 .f32) = ew1A m c := by
  exact W5_m m ρ c main_arg4 (by simp [args])

theorem V5_arg10 (c : Dev nD) : (V5 m ρ c main_arg10 : FVec Ideal S128x128 .f32) = pw0A m c := by
  exact W5_m m ρ c main_arg10 (by simp [args])

theorem V5_arg12 (c : Dev nD) : (V5 m ρ c main_arg12 : FVec Ideal S128x1 .f32) = pw1A m c := by
  exact W5_m m ρ c main_arg12 (by simp [args])

end Cert.KernelIdeal.Fold

end
-- ==== Proof.FoldNodeEntry.lean ====
/-
  What the node kernel finds in its seven input arrays, and the scattered translations.

  Between the two kernels the program adds every edge's message into its receiver's row and every edge's
  translation into its sender's row, cuts the first node weight into its two halves and lays the two node biases
  out as one-row arrays. The edge kernel's two outputs are read where that kernel's run leaves them.
-/
import proofs.«410676_j8297876816265_1_alg».proof.Proof.FoldArgs
import proofs.«410676_j8297876816265_1_alg».proof.Proof.HostTerms
import proofs.«410676_j8297876816265_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Fold

open Cert.KernelIdeal Cert.KernelIdeal.Gen Cert.KernelIdeal.Terms Idealize.ShloMosaic Idealize.ShloMosaic.TcCoe Idealize.SL.Sem
open Idealize.ShloMosaic.StableHlo Cert.Egnn Idealize.ShloMosaic.ValueIdx

variable (m : (ℓ : Loc nD τ sig) → Buf (Elt Ideal) ℓ) (ρ : Dev nD → PrngReg)

theorem V7_arg0 (c : Dev nD) : (V7 m ρ c main_arg0 : FVec Ideal S50000x128 .f32) = nodesA m c := by
  exact W7_m m ρ c main_arg0 (by simp [argsLate])

theorem V7_arg8 (c : Dev nD) : (V7 m ρ c main_arg8 : FVec Ideal S128x128 .f32) = nw1A m c := by
  exact W7_m m ρ c main_arg8 (by simp [argsLate])

/-- The aggregated messages: the edge kernel's first output added into the receivers' rows. -/
theorem V7_v17 (c : Dev nD) :
    (V7 m ρ c main_v17 : FVec Ideal S50000x128 .f32)
      = agg128 (rcvA m c) ((dat0 (F := Ideal) (V5 m ρ) c).arrAt 13 cfg0.N) := by
  -- the receivers' indices are the launch contents; the messages are array 13 of the edge kernel's region
  have hi : W6 m ρ c (Proc.devRef .tc main_arg14) = rcvA m c := W6_m m ρ c main_arg14 (by simp [argsLate])
  have hu : W6 m ρ c (Proc.devRef .tc main_v14_0) = (dat0 (F := Ideal) (V5 m ρ) c).arrAt 13 cfg0.N := W6_arr m ρ c 13
  show StableHlo.after hostOps1 (W6 m ρ c) (Proc.devRef .tc main_v17) = _
  after_results
  rw [hi, hu]

/-- The scattered translations: the edge kernel's second output added into the senders' rows. -/
theorem W7_v20 (c : Dev nD) :
    (W7 m ρ c (Proc.devRef .tc main_v20) : FVec Ideal S50000x3 .f32)
      = agg3 (sndA m c) ((dat0 (F := Ideal) (V5 m ρ) c).arrAt 14 cfg0.N) := by
  -- the senders' indices are the launch contents; the translations are array 14 of the edge kernel's region
  have hi : W6 m ρ c (Proc.devRef .tc main_arg13) = sndA m c := W6_m m ρ c main_arg13 (by simp [argsLate])
  have hu : W6 m ρ c (Proc.devRef .tc main_v14_1) = (dat0 (F := Ideal) (V5 m ρ) c).arrAt 14 cfg0.N := W6_arr m ρ c 14
  show StableHlo.after hostOps1 (W6 m ρ c) (Proc.devRef .tc main_v20) = _
  after_results
  rw [hi, hu]

/-- The first node weight's upper half, as a slice of the launch contents. -/
private theorem V7_v21 (c : Dev nD) :
    (V7 m ρ c main_v21 : Mat 128 128) = extractStridedSlice S128x128 ![0, 0] (nw0A m c) slices_S256x128_S128x128_0_0 := by
  have hw : W6 m ρ c (Proc.devRef .tc main_arg6) = nw0A m c := W6_m m ρ c main_arg6 (by simp [argsLate])
  show StableHlo.after hostOps1 (W6 m ρ c) (Proc.devRef .tc main_v21) = _
  after_results
  rw [hw]

/-- Its lower half. -/
private theorem V7_v22 (c : Dev nD) :
    (V7 m ρ c main_v22 : Mat 128 128) = extractStridedSlice S128x128 ![128, 0] (nw0A m c) slices_S256x128_S128x128_128_0 := by
  have hw : W6 m ρ c (Proc.devRef .tc main_arg6) = nw0A m c := W6_m m ρ c main_arg6 (by simp [argsLate])
  show StableHlo.after hostOps1 (W6 m ρ c) (Proc.devRef .tc main_v22) = _
  after_results
  rw [hw]

/-- Rows 0–127 of the first node weight. -/
theorem V7_v21_at (c : Dev nD) (k j : Fin 128) :
    (V7 m ρ c main_v21 : Mat 128 128) (ix2 k j) = nw0A m c (ix2 ⟨k.val, by omega⟩ j) := by
  rw [V7_v21 m ρ c]
  exact extractStridedSlice_apply _ _ _ _ _ (fun ax => by
    match ax with
    | ⟨0, _⟩ => exact (Nat.zero_add _).symm
    | ⟨1, _⟩ => exact (Nat.zero_add _).symm)

/-- Rows 128–255. -/
theorem V7_v22_at (c : Dev nD) (k j : Fin 128) :
    (V7 m ρ c main_v22 : Mat 128 128) (ix2 k j) = nw0A m c (ix2 ⟨128 + k.val, by omega⟩ j) := by
  rw [V7_v22 m ρ c]
  exact extractStridedSlice_apply _ _ _ _ _ (fun ax => by
    match ax with
    | ⟨0, _⟩ => rfl
    | ⟨1, _⟩ => exact (Nat.zero_add _).symm)

/-- A 128-vector laid out as one row reads, at column `j`, the vector's entry `j`. -/
private theorem oneRow_at (x : FVec Ideal S128 .f32) (j : Fin 128) :
    shapeCast S1x128 x shapeCasts_S128_S1x128 (ix2 0 j) = x (ix1 j) :=
  shapeCast_apply x shapeCasts_S128_S1x128 _ _ (by
    rw [Shape.rowMajor_val_two, Shape.rowMajor_val_one]
    show j.val = 0 * 128 + j.val
    rw [Nat.zero_mul, Nat.zero_add])

theorem V7_v23_at (c : Dev nD) (j : Fin 128) : (V7 m ρ c main_v23 : Mat 1 128) (ix2 0 j) = nb0A m c (ix1 j) := by
  have hb : W6 m ρ c (Proc.devRef .tc main_arg7) = nb0A m c := W6_m m ρ c main_arg7 (by simp [argsLate])
  have e : (V7 m ρ c main_v23 : Mat 1 128) = shapeCast S1x128 (nb0A m c) shapeCasts_S128_S1x128 := by
    show StableHlo.after hostOps1 (W6 m ρ c) (Proc.devRef .tc main_v23) = _
    after_results
    rw [hb]
    rfl
  rw [e]
  exact oneRow_at _ j

theorem V7_v24_at (c : Dev nD) (j : Fin 128) : (V7 m ρ c main_v24 : Mat 1 128) (ix2 0 j) = nb1A m c (ix1 j) := by
  have hb : W6 m ρ c (Proc.devRef .tc main_arg9) = nb1A m c := W6_m m ρ c main_arg9 (by simp [argsLate])
  have e : (V7 m ρ c main_v24 : Mat 1 128) = shapeCast S1x128 (nb1A m c) shapeCasts_S128_S1x128 := by
    show StableHlo.after hostOps1 (W6 m ρ c) (Proc.devRef .tc main_v24) = _
    after_results
    rw [hb]
    rfl
  rw [e]
  exact oneRow_at _ j

end Cert.KernelIdeal.Fold

end
-- ==== Proof.FoldResults.lean ====
/-
  The program's two results.

  The updated features are the node kernel's output where that kernel's run leaves it; the updated positions are
  the positions plus the scattered translations, the program's last operation.
-/
import proofs.«410676_j8297876816265_1_alg».proof.Proof.FoldNodeEntry

set_option maxRecDepth 16384

noncomputable section

namespace Cert.KernelIdeal.Fold

open Cert.KernelIdeal Cert.KernelIdeal.Gen Cert.KernelIdeal.Terms Idealize.ShloMosaic Idealize.ShloMosaic.TcCoe Idealize.SL.Sem
open Idealize.ShloMosaic.StableHlo

variable (m : (ℓ : Loc nD τ sig) → Buf (Elt Ideal) ℓ) (ρ : Dev nD → PrngReg)

/-- No operation of the stretch writes the buffer: each operation's one result buffer is another. -/
local macro "unwritten" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem W9_v25 (c : Dev nD) :
    (W9 m ρ c (Proc.devRef .tc main_v25) : FVec Ideal S50000x128 .f32) = (dat1 (F := Ideal) (V7 m ρ) c).arrAt 7 cfg1.N := by
  -- the last operation writes the positions only; the features are array 7 of the node kernel's region
  have h : W9 m ρ c (Proc.devRef .tc main_v25) = W8 m ρ c (Proc.devRef .tc main_v25) := by unwritten hostOps2
  exact h.trans (W8_arr m ρ c 7)

theorem W9_v26 (c : Dev nD) :
    (W9 m ρ c (Proc.devRef .tc main_v26) : FVec Ideal S50000x3 .f32)
      = addf (posA m c) (agg3 (sndA m c) ((dat0 (F := Ideal) (V5 m ρ) c).arrAt 14 cfg0.N)) := by
  -- the node kernel's region leaves both operands as it found them
  have hp : W8 m ρ c (Proc.devRef .tc main_arg1) = posA m c := W8_m_arg1 m ρ c
  have ht : W8 m ρ c (Proc.devRef .tc main_v20) = agg3 (sndA m c) ((dat0 (F := Ideal) (V5 m ρ) c).arrAt 14 cfg0.N) :=
    (W8_of_ne m ρ c main_v20 (by decide)).trans (W7_v20 m ρ c)
  show StableHlo.after hostOps2 (W8 m ρ c) (Proc.devRef .tc main_v26) = _
  after_results
  rw [hp, ht]

end Cert.KernelIdeal.Fold

end
-- ==== Proof.KernelValue.lean ====
/-
  The kernel program's two results as functions of the launch arrays.

  Chaining the boundaries: the edge kernel's outputs are the row-wise message and translation functions of what it
  finds (the gathered rows, the squared distances, the weight pieces); the aggregate adds the messages into the
  receivers' rows; the node kernel's output is the row-wise update of the features and the aggregate; the new
  positions are the positions plus the translations added into the senders' rows.
  The weight pieces and bias rows stay named as the buffers the kernels find; their entries are read off the
  launch arrays by the entry lemmas. When every index names a row of the tables, the bounds-checked gathers are the
  plain ones, and the results are stated in that form last.
-/
import proofs.«410676_j8297876816265_1_alg».proof.Proof.Regions
import proofs.«410676_j8297876816265_1_alg».proof.Proof.FoldEdgeEntry
import proofs.«410676_j8297876816265_1_alg».proof.Proof.FoldResults

set_option maxRecDepth 16384

noncomputable section

namespace Cert.KernelIdeal.Fold

open Cert.KernelIdeal Cert.KernelIdeal.Gen Cert.KernelIdeal.Terms Idealize.ShloMosaic Idealize.ShloMosaic.TcCoe Idealize.SL.Sem
open Idealize.ShloMosaic.StableHlo Cert.Egnn Idealize.ShloMosaic.ValueIdx

variable (m : (ℓ : Loc nD τ sig) → Buf (Elt Ideal) ℓ) (ρ : Dev nD → PrngReg)

/-- Every edge's message. -/
abbrev msgK (c : Dev nD) : Mat 800000 128 :=
  EdgeMsg (n := 800000) (take128 (nodesA m c) (sndA m c)) (take128 (nodesA m c) (rcvA m c)) (sqLen (posDiff m c))
    (V5 m ρ c main_v8) (V5 m ρ c main_v9) (V5 m ρ c main_v10) (V5 m ρ c main_v11) (ew1A m c) (V5 m ρ c main_v12)

/-- Every edge's clipped translation. -/
abbrev transK (c : Dev nD) : Mat 800000 3 :=
  EdgeTrans (n := 800000) (take128 (nodesA m c) (sndA m c)) (take128 (nodesA m c) (rcvA m c)) (sqLen (posDiff m c))
    (posDiff m c) (V5 m ρ c main_v8) (V5 m ρ c main_v9) (V5 m ρ c main_v10) (V5 m ρ c main_v11) (ew1A m c)
    (V5 m ρ c main_v12) (pw0A m c) (V5 m ρ c main_v13) (pw1A m c)

theorem edge_msg (c : Dev nD) : (dat0 (F := Ideal) (V5 m ρ) c).arrAt 13 cfg0.N = msgK m ρ c := by
  rw [Regions.final_msg (V5 m ρ) c, V5_v0, V5_v1, V5_v7, V5_arg4]

theorem edge_trans (c : Dev nD) : (dat0 (F := Ideal) (V5 m ρ) c).arrAt 14 cfg0.N = transK m ρ c := by
  rw [Regions.final_trans (V5 m ρ) c, V5_v0, V5_v1, V5_v7, V5_v4, V5_arg4, V5_arg10, V5_arg12]

/-- The updated features. -/
theorem kernel_node (c : Dev nD) :
    (W9 m ρ c (Proc.devRef .tc main_v25) : FVec Ideal S50000x128 .f32)
      = NodeOut (n := 50000) (nodesA m c) (agg128 (rcvA m c) (msgK m ρ c)) (V7 m ρ c main_v21) (V7 m ρ c main_v22)
          (V7 m ρ c main_v23) (nw1A m c) (V7 m ρ c main_v24) := by
  rw [W9_v25, Regions.final_node (V7 m ρ) c, V7_arg0, V7_v17, edge_msg, V7_arg8]

/-- The updated positions. -/
theorem kernel_pos (c : Dev nD) :
    (W9 m ρ c (Proc.devRef .tc main_v26) : FVec Ideal S50000x3 .f32) = addf (posA m c) (agg3 (sndA m c) (transK m ρ c)) := by
  rw [W9_v26, edge_trans]

/-! ## With every index a row of the tables -/

/-- The position difference of each edge, plainly gathered. -/
abbrev posDiffG (c : Dev nD) : FVec Ideal S800000x3 .f32 := subf (gath3 (posA m c) (sndA m c)) (gath3 (posA m c) (rcvA m c))

abbrev msgG (c : Dev nD) : Mat 800000 128 :=
  EdgeMsg (n := 800000) (gath128 (nodesA m c) (sndA m c)) (gath128 (nodesA m c) (rcvA m c)) (sqLen (posDiffG m c))
    (V5 m ρ c main_v8) (V5 m ρ c main_v9) (V5 m ρ c main_v10) (V5 m ρ c main_v11) (ew1A m c) (V5 m ρ c main_v12)

abbrev transG (c : Dev nD) : Mat 800000 3 :=
  EdgeTrans (n := 800000) (gath128 (nodesA m c) (sndA m c)) (gath128 (nodesA m c) (rcvA m c)) (sqLen (posDiffG m c))
    (posDiffG m c) (V5 m ρ c main_v8) (V5 m ρ c main_v9) (V5 m ρ c main_v10) (V5 m ρ c main_v11) (ew1A m c)
    (V5 m ρ c main_v12) (pw0A m c) (V5 m ρ c main_v13) (pw1A m c)

/-- The first result, at its buffer's type. -/
def nodeResult (c : Dev nD) : Buf (Elt Ideal) ((c.tc : Thread nD τ).loc main_v25) :=
  NodeOut (n := 50000) (nodesA m c) (agg128 (rcvA m c) (msgG m ρ c)) (V7 m ρ c main_v21) (V7 m ρ c main_v22)
    (V7 m ρ c main_v23) (nw1A m c) (V7 m ρ c main_v24)

/-- The second result, at its buffer's type. -/
def posResult (c : Dev nD) : Buf (Elt Ideal) ((c.tc : Thread nD τ).loc main_v26) :=
  addf (posA m c) (agg3 (sndA m c) (transG m ρ c))

theorem msgK_eq (c : Dev nD) (hs : ∀ i, Take.InRange (sndA m c i)) (hr : ∀ i, Take.InRange (rcvA m c i)) :
    msgK m ρ c = msgG m ρ c := by
  unfold msgK msgG posDiff posDiffG
  rw [take128_gath _ _ hs, take128_gath _ _ hr, take3_gath _ _ hs, take3_gath _ _ hr]

theorem transK_eq (c : Dev nD) (hs : ∀ i, Take.InRange (sndA m c i)) (hr : ∀ i, Take.InRange (rcvA m c i)) :
    transK m ρ c = transG m ρ c := by
  unfold transK transG posDiff posDiffG
  rw [take128_gath _ _ hs, take128_gath _ _ hr, take3_gath _ _ hs, take3_gath _ _ hr]

theorem node_result (c : Dev nD) (hs : ∀ i, Take.InRange (sndA m c i)) (hr : ∀ i, Take.InRange (rcvA m c i)) :
    W9 m ρ c (Proc.devRef .tc main_v25) = nodeResult m ρ c := by
  unfold nodeResult
  rw [← msgK_eq m ρ c hs hr]
  exact kernel_node m ρ c

theorem pos_result (c : Dev nD) (hs : ∀ i, Take.InRange (sndA m c i)) (hr : ∀ i, Take.InRange (rcvA m c i)) :
    W9 m ρ c (Proc.devRef .tc main_v26) = posResult m ρ c := by
  unfold posResult
  rw [← transK_eq m ρ c hs hr]
  exact kernel_pos m ρ c

end Cert.KernelIdeal.Fold

end
-- ==== Proof.RefEdge.lean ====
/-
  The reference's edge network, read row by row: its messages (`%42`) and clipped translations (`%65`) are
  `Egnn.EdgeMsg` / `Egnn.EdgeTrans` of the gathered features, the squared distances and the position differences.
  The reference multiplies the concatenation [sender row | receiver row | distance] by the whole 257-row weight;
  cutting that sum at rows 128 and 256 (`Egnn.sum_257`) gives the three terms the specification adds, for any
  arrays `w0s w0r w0rad` holding those three row ranges of the weight and bias rows holding the biases.
  Each stage is read at an index (p, j) from the stage before it: the concatenation by the piece its column falls in,
  a product as the sum over the contracted axis, a bias as the entry of its row, and the activation, which the
  reference spells as negate, exponential, one plus, one over, times, as x times the logistic function of x.
-/
import proofs.«410676_j8297876816265_1_alg».proof.Proof.Gen.ReferenceIdeal.Read
import proofs.«410676_j8297876816265_1_alg».proof.Proof.Spec
import proofs.«410676_j8297876816265_1_alg».proof.Proof.LibRowOps
import Idealize.ShloMosaic.Lib.IdealHost

noncomputable section

namespace Cert.ReferenceIdeal.RefEdge

open Cert.ReferenceIdeal Cert.ReferenceIdeal.Read Cert.Egnn Idealize.ShloMosaic Idealize.ShloMosaic.TcCoe Idealize.ShloMosaic.ValueIdx
open scoped BigOperators

/-! ## Three pieces joined along the columns

An [n, 128] piece, another [n, 128] piece and an [n, 1] piece make [n, 257]: a column below 128 is the first piece's,
column 128 + k is the second piece's column k, and column 256 is the third piece's only column. -/

section Pieces
variable {α : Type}

theorem cat3_first {n : ℕ} (a b : (⟨2, ![n, 128]⟩ : Shape).Idx → α) (r : (⟨2, ![n, 1]⟩ : Shape).Idx → α)
    (h : Shape.Concatenates [(⟨2, ![n, 128]⟩ : Shape), ⟨2, ![n, 128]⟩, ⟨2, ![n, 1]⟩] ⟨2, ![n, 257]⟩ 1) (p : Fin n) (k : Fin 128) :
    concatenate ⟨2, ![n, 257]⟩ 1 [⟨⟨2, ![n, 128]⟩, a⟩, ⟨⟨2, ![n, 128]⟩, b⟩, ⟨⟨2, ![n, 1]⟩, r⟩] h (ix2 p ⟨k.val, by omega⟩) = a (ix2 p k) :=
  concatenate_apply_piece 1 [⟨⟨2, ![n, 128]⟩, a⟩, ⟨⟨2, ![n, 128]⟩, b⟩, ⟨⟨2, ![n, 1]⟩, r⟩] h _ 0 (by simp) _ a rfl rfl 0 rfl (ix2 p k)
    (fun c hc => by match c with | ⟨0, _⟩ => rfl | ⟨1, _⟩ => exact absurd rfl hc)
    (by show 0 + k.val = k.val; omega)

theorem cat3_second {n : ℕ} (a b : (⟨2, ![n, 128]⟩ : Shape).Idx → α) (r : (⟨2, ![n, 1]⟩ : Shape).Idx → α)
    (h : Shape.Concatenates [(⟨2, ![n, 128]⟩ : Shape), ⟨2, ![n, 128]⟩, ⟨2, ![n, 1]⟩] ⟨2, ![n, 257]⟩ 1) (p : Fin n) (k : Fin 128) :
    concatenate ⟨2, ![n, 257]⟩ 1 [⟨⟨2, ![n, 128]⟩, a⟩, ⟨⟨2, ![n, 128]⟩, b⟩, ⟨⟨2, ![n, 1]⟩, r⟩] h (ix2 p ⟨128 + k.val, by omega⟩) = b (ix2 p k) :=
  concatenate_apply_piece 1 [⟨⟨2, ![n, 128]⟩, a⟩, ⟨⟨2, ![n, 128]⟩, b⟩, ⟨⟨2, ![n, 1]⟩, r⟩] h _ 1 (by simp) _ b rfl rfl 128 rfl (ix2 p k)
    (fun c hc => by match c with | ⟨0, _⟩ => rfl | ⟨1, _⟩ => exact absurd rfl hc)
    (by show 128 + k.val = 128 + k.val; rfl)

theorem cat3_third {n : ℕ} (a b : (⟨2, ![n, 128]⟩ : Shape).Idx → α) (r : (⟨2, ![n, 1]⟩ : Shape).Idx → α)
    (h : Shape.Concatenates [(⟨2, ![n, 128]⟩ : Shape), ⟨2, ![n, 128]⟩, ⟨2, ![n, 1]⟩] ⟨2, ![n, 257]⟩ 1) (p : Fin n) :
    concatenate ⟨2, ![n, 257]⟩ 1 [⟨⟨2, ![n, 128]⟩, a⟩, ⟨⟨2, ![n, 128]⟩, b⟩, ⟨⟨2, ![n, 1]⟩, r⟩] h (ix2 p ⟨256, by omega⟩) = r (ix2 p 0) :=
  concatenate_apply_piece 1 [⟨⟨2, ![n, 128]⟩, a⟩, ⟨⟨2, ![n, 128]⟩, b⟩, ⟨⟨2, ![n, 1]⟩, r⟩] h _ 2 (by simp) _ r rfl rfl 256 rfl (ix2 p 0)
    (fun c hc => by match c with | ⟨0, _⟩ => rfl | ⟨1, _⟩ => exact absurd rfl hc)
    (by show 256 + 0 = 256; rfl)

end Pieces

/-! ## The activation as the reference spells it, and sums of four terms -/

/-- Negate, exponential, one plus, one over, times: with the word 0x3F800000 read as 1 this is x times the
    logistic function of x. -/
theorem silu_host (x : EReal) :
    x * Ideal.div (Ideal.ofBits .f32 0x3F800000#32) (Ideal.ofBits .f32 0x3F800000#32 + Ideal.exp (-x)) = silu x := by
  rw [Ideal.ofBits_one_f32]; rfl

theorem add4_congr {a a' b b' c c' d d' : EReal} (ha : a = a') (hb : b = b') (hc : c = c') (hd : d = d') :
    ((a + b) + c) + d = ((a' + b') + c') + d' := by rw [ha, hb, hc, hd]

/-! ## The operand indices of the products and broadcasts, as coordinates -/

theorem lidx33 (p : Fin 800000) (j : Fin 128) (k : Fin 257) : lidx_main_v33 (ix2 p j) k = ix2 p k :=
  funext fun a => by match a with | ⟨0, _⟩ => rfl | ⟨1, _⟩ => rfl
theorem ridx33 (p : Fin 800000) (j : Fin 128) (k : Fin 257) : ridx_main_v33 (ix2 p j) k = ix2 k j :=
  funext fun a => by match a with | ⟨0, _⟩ => rfl | ⟨1, _⟩ => rfl
theorem lidx38 (p : Fin 800000) (j k : Fin 128) : lidx_main_v38 (ix2 p j) k = ix2 p k :=
  funext fun a => by match a with | ⟨0, _⟩ => rfl | ⟨1, _⟩ => rfl
theorem ridx38 (p : Fin 800000) (j k : Fin 128) : ridx_main_v38 (ix2 p j) k = ix2 k j :=
  funext fun a => by match a with | ⟨0, _⟩ => rfl | ⟨1, _⟩ => rfl
theorem lidx57 (p : Fin 800000) (j k : Fin 128) : lidx_main_v57 (ix2 p j) k = ix2 p k :=
  funext fun a => by match a with | ⟨0, _⟩ => rfl | ⟨1, _⟩ => rfl
theorem ridx57 (p : Fin 800000) (j k : Fin 128) : ridx_main_v57 (ix2 p j) k = ix2 k j :=
  funext fun a => by match a with | ⟨0, _⟩ => rfl | ⟨1, _⟩ => rfl
theorem lidx62 (p : Fin 800000) (q : Fin 1) (k : Fin 128) : lidx_main_v62 (ix2 p q) k = ix2 p k :=
  funext fun a => by match a with | ⟨0, _⟩ => rfl | ⟨1, _⟩ => rfl
theorem ridx62 (p : Fin 800000) (q : Fin 1) (k : Fin 128) : ridx_main_v62 (ix2 p q) k = ix2 k q :=
  funext fun a => by match a with | ⟨0, _⟩ => rfl | ⟨1, _⟩ => rfl
theorem bias35 (p : Fin 800000) (j : Fin 128) : idx_main_v34 (idx_main_v35 (ix2 p j)) = ix1 j :=
  funext fun a => by match a with | ⟨0, _⟩ => rfl
theorem bias40 (p : Fin 800000) (j : Fin 128) : idx_main_v39 (idx_main_v40 (ix2 p j)) = ix1 j :=
  funext fun a => by match a with | ⟨0, _⟩ => rfl
theorem bias59 (p : Fin 800000) (j : Fin 128) : idx_main_v58 (idx_main_v59 (ix2 p j)) = ix1 j :=
  funext fun a => by match a with | ⟨0, _⟩ => rfl
theorem idx63 (p : Fin 800000) (q : Fin 3) : idx_main_v63 (ix2 p q) = ix2 p 0 :=
  funext fun a => by match a with | ⟨0, _⟩ => rfl | ⟨1, _⟩ => rfl

/-! ## The stages, one at a time -/

section Stages

variable {x0 : (⟨S50000x128, .f32⟩ : BufTy).Contents (Elt Ideal)} {x1 : (⟨S50000x3, .f32⟩ : BufTy).Contents (Elt Ideal)} {x2 : (⟨S257x128, .f32⟩ : BufTy).Contents (Elt Ideal)}
  {x3 : (⟨S128, .f32⟩ : BufTy).Contents (Elt Ideal)} {x4 : (⟨S128x128, .f32⟩ : BufTy).Contents (Elt Ideal)} {x5 : (⟨S128, .f32⟩ : BufTy).Contents (Elt Ideal)}
  {x10 : (⟨S128x128, .f32⟩ : BufTy).Contents (Elt Ideal)} {x11 : (⟨S128, .f32⟩ : BufTy).Contents (Elt Ideal)} {x12 : (⟨S128x1, .f32⟩ : BufTy).Contents (Elt Ideal)}
  {x13 x14 : (⟨S800000, .i32⟩ : BufTy).Contents (Elt Ideal)}

/-- The joined array at a column of the sender rows. -/
theorem v32_first (p : Fin 800000) (k : Fin 128) :
    val_main_v32 (F := Ideal) x0 x1 x13 x14 (ix2 p ⟨k.val, by omega⟩) = val_main_v24 (F := Ideal) x0 x13 (ix2 p k) := by
  unfold val_main_v32
  generalize val_main_v24 (F := Ideal) x0 x13 = A
  generalize val_main_v31 (F := Ideal) x0 x14 = B
  generalize val_main_v17 (F := Ideal) x1 x13 x14 = R
  exact cat3_first A B R _ p k

/-- The joined array at a column of the receiver rows. -/
theorem v32_second (p : Fin 800000) (k : Fin 128) :
    val_main_v32 (F := Ideal) x0 x1 x13 x14 (ix2 p ⟨128 + k.val, by omega⟩) = val_main_v31 (F := Ideal) x0 x14 (ix2 p k) := by
  unfold val_main_v32
  generalize val_main_v24 (F := Ideal) x0 x13 = A
  generalize val_main_v31 (F := Ideal) x0 x14 = B
  generalize val_main_v17 (F := Ideal) x1 x13 x14 = R
  exact cat3_second A B R _ p k

/-- The joined array at its last column, the squared distance. -/
theorem v32_third (p : Fin 800000) :
    val_main_v32 (F := Ideal) x0 x1 x13 x14 (ix2 p ⟨256, by omega⟩) = val_main_v17 (F := Ideal) x1 x13 x14 (ix2 p 0) := by
  unfold val_main_v32
  generalize val_main_v24 (F := Ideal) x0 x13 = A
  generalize val_main_v31 (F := Ideal) x0 x14 = B
  generalize val_main_v17 (F := Ideal) x1 x13 x14 = R
  exact cat3_third A B R _ p

/-- The first layer before its activation: the sum over the 257 rows of the weight, cut at rows 128 and 256. -/
theorem v36_at (w0s w0r : Mat 128 128) (w0rad b0 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (p : Fin 800000) (j : Fin 128) :
    val_main_v36 (F := Ideal) x0 x1 x2 x3 x13 x14 (ix2 p j)
      = (((∑ k : Fin 128, val_main_v24 (F := Ideal) x0 x13 (ix2 p k) * w0s (ix2 k j))
          + ∑ k : Fin 128, val_main_v31 (F := Ideal) x0 x14 (ix2 p k) * w0r (ix2 k j))
          + val_main_v17 (F := Ideal) x1 x13 x14 (ix2 p 0) * w0rad (ix2 0 j)) + b0 (ix2 0 j) := by
  rw [val_main_v36_apply, val_main_v33_apply, val_main_v35_apply, val_main_v34_apply, bias35, sum_257, Ideal.addf_def]
  refine add4_congr (Finset.sum_congr rfl fun k _ => ?_) (Finset.sum_congr rfl fun k _ => ?_) ?_ (hb0 j).symm
  · rw [lidx33, ridx33, v32_first, hs k j]
  · rw [lidx33, ridx33, v32_second, hr k j]
  · rw [lidx33, ridx33, v32_third, hrad j]

/-- The first activation. -/
theorem v37_silu (i : S800000x128.Idx) :
    val_main_v37 (F := Ideal) x0 x1 x2 x3 x13 x14 i = silu (val_main_v36 (F := Ideal) x0 x1 x2 x3 x13 x14 i) := by
  rw [val_main_v37_apply, val_main_call0_v5_apply, val_main_call0_v4_apply, val_main_call0_cst_0_apply,
    val_main_call0_v3_apply, val_main_call0_v2_apply, val_main_call0_cst_apply, val_main_call0_v1_apply,
    val_main_call0_v0_apply]
  exact silu_host _

/-- The first edge layer at (p, j). -/
theorem h_at (w0s w0r : Mat 128 128) (w0rad b0 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (p : Fin 800000) (j : Fin 128) :
    val_main_v37 (F := Ideal) x0 x1 x2 x3 x13 x14 (ix2 p j)
      = hRow (row (val_main_v24 (F := Ideal) x0 x13) p) (row (val_main_v31 (F := Ideal) x0 x14) p)
          (val_main_v17 (F := Ideal) x1 x13 x14 (ix2 p 0)) w0s w0r w0rad b0 j := by
  rw [v37_silu, v36_at w0s w0r w0rad b0 hs hr hrad hb0]
  generalize val_main_v24 (F := Ideal) x0 x13 = A
  generalize val_main_v31 (F := Ideal) x0 x14 = B
  generalize val_main_v17 (F := Ideal) x1 x13 x14 = R
  rfl

/-- The second layer before its activation. -/
theorem v41_at (b1 : Mat 1 128) (hb1 : ∀ j : Fin 128, b1 (ix2 0 j) = x5 (ix1 j)) (p : Fin 800000) (j : Fin 128) :
    val_main_v41 (F := Ideal) x0 x1 x2 x3 x4 x5 x13 x14 (ix2 p j)
      = (∑ k : Fin 128, val_main_v37 (F := Ideal) x0 x1 x2 x3 x13 x14 (ix2 p k) * x4 (ix2 k j)) + b1 (ix2 0 j) := by
  rw [val_main_v41_apply, val_main_v38_apply, val_main_v40_apply, val_main_v39_apply, bias40, Ideal.addf_def, hb1 j]
  refine congrArg (fun s : EReal => s + x5 (ix1 j)) (Finset.sum_congr rfl fun k _ => ?_)
  rw [lidx38, ridx38]

/-- The second activation. -/
theorem v42_silu (i : S800000x128.Idx) :
    val_main_v42 (F := Ideal) x0 x1 x2 x3 x4 x5 x13 x14 i = silu (val_main_v41 (F := Ideal) x0 x1 x2 x3 x4 x5 x13 x14 i) := by
  rw [val_main_v42_apply, val_main_call1_v5_apply, val_main_call1_v4_apply, val_main_call1_cst_0_apply,
    val_main_call1_v3_apply, val_main_call1_v2_apply, val_main_call1_cst_apply, val_main_call1_v1_apply,
    val_main_call1_v0_apply]
  exact silu_host _

/-- The message at (p, j). -/
theorem msg_at (w0s w0r : Mat 128 128) (w0rad b0 b1 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j))
    (p : Fin 800000) (j : Fin 128) :
    val_main_v42 (F := Ideal) x0 x1 x2 x3 x4 x5 x13 x14 (ix2 p j)
      = msgRow (row (val_main_v24 (F := Ideal) x0 x13) p) (row (val_main_v31 (F := Ideal) x0 x14) p)
          (val_main_v17 (F := Ideal) x1 x13 x14 (ix2 p 0)) w0s w0r w0rad b0 x4 b1 j := by
  rw [v42_silu, v41_at b1 hb1]
  unfold msgRow
  refine congrArg (fun s : EReal => silu (s + b1 (ix2 0 j))) (Finset.sum_congr rfl fun k _ => ?_)
  rw [h_at w0s w0r w0rad b0 hs hr hrad hb0]

/-- The position layer before its activation. -/
theorem v60_at (pb0 : Mat 1 128) (hpb0 : ∀ j : Fin 128, pb0 (ix2 0 j) = x11 (ix1 j)) (p : Fin 800000) (k : Fin 128) :
    val_main_v60 (F := Ideal) x0 x1 x2 x3 x4 x5 x10 x11 x13 x14 (ix2 p k)
      = (∑ k' : Fin 128, val_main_v42 (F := Ideal) x0 x1 x2 x3 x4 x5 x13 x14 (ix2 p k') * x10 (ix2 k' k)) + pb0 (ix2 0 k) := by
  rw [val_main_v60_apply, val_main_v57_apply, val_main_v59_apply, val_main_v58_apply, bias59, Ideal.addf_def, hpb0 k]
  refine congrArg (fun s : EReal => s + x11 (ix1 k)) (Finset.sum_congr rfl fun k' _ => ?_)
  rw [lidx57, ridx57]

/-- The third activation. -/
theorem v61_silu (i : S800000x128.Idx) :
    val_main_v61 (F := Ideal) x0 x1 x2 x3 x4 x5 x10 x11 x13 x14 i
      = silu (val_main_v60 (F := Ideal) x0 x1 x2 x3 x4 x5 x10 x11 x13 x14 i) := by
  rw [val_main_v61_apply, val_main_call3_v5_apply, val_main_call3_v4_apply, val_main_call3_cst_0_apply,
    val_main_call3_v3_apply, val_main_call3_v2_apply, val_main_call3_cst_apply, val_main_call3_v1_apply,
    val_main_call3_v0_apply]
  exact silu_host _

/-- The position weight of edge p. -/
theorem w_at (w0s w0r : Mat 128 128) (w0rad b0 b1 pb0 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j))
    (hpb0 : ∀ j : Fin 128, pb0 (ix2 0 j) = x11 (ix1 j)) (p : Fin 800000) :
    val_main_v62 (F := Ideal) x0 x1 x2 x3 x4 x5 x10 x11 x12 x13 x14 (ix2 p 0)
      = wOfMsg (msgRow (row (val_main_v24 (F := Ideal) x0 x13) p) (row (val_main_v31 (F := Ideal) x0 x14) p)
          (val_main_v17 (F := Ideal) x1 x13 x14 (ix2 p 0)) w0s w0r w0rad b0 x4 b1) x10 pb0 x12 := by
  rw [val_main_v62_apply]
  unfold wOfMsg
  refine Finset.sum_congr rfl fun k _ => ?_
  rw [lidx62, ridx62, v61_silu, v60_at pb0 hpb0]
  refine congrArg (fun s : EReal => silu (s + pb0 (ix2 0 k)) * x12 (ix2 k 0)) (Finset.sum_congr rfl fun k' _ => ?_)
  rw [msg_at w0s w0r w0rad b0 b1 hs hr hrad hb0 hb1]

/-- The clipped translation at (p, q). -/
theorem trans_at (w0s w0r : Mat 128 128) (w0rad b0 b1 pb0 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j))
    (hpb0 : ∀ j : Fin 128, pb0 (ix2 0 j) = x11 (ix1 j)) (p : Fin 800000) (q : Fin 3) :
    val_main_v65 (F := Ideal) x0 x1 x2 x3 x4 x5 x10 x11 x12 x13 x14 (ix2 p q)
      = transOf (val_main_v14 (F := Ideal) x1 x13 x14 (ix2 p q))
          (wOfMsg (msgRow (row (val_main_v24 (F := Ideal) x0 x13) p) (row (val_main_v31 (F := Ideal) x0 x14) p)
            (val_main_v17 (F := Ideal) x1 x13 x14 (ix2 p 0)) w0s w0r w0rad b0 x4 b1) x10 pb0 x12) := by
  rw [val_main_v65_apply, val_main_call4_v4_apply, val_main_call4_v3_apply, val_main_cst_9_apply,
    val_main_call4_v2_apply, val_main_call4_v1_apply, val_main_call4_v0_apply, val_main_cst_8_apply,
    val_main_v64_apply, val_main_v63_apply, idx63, w_at w0s w0r w0rad b0 b1 pb0 hs hr hrad hb0 hb1 hpb0]
  generalize val_main_v14 (F := Ideal) x1 x13 x14 = D
  generalize val_main_v24 (F := Ideal) x0 x13 = A
  generalize val_main_v31 (F := Ideal) x0 x14 = B
  generalize val_main_v17 (F := Ideal) x1 x13 x14 = R
  rfl

end Stages

/-! ## The two arrays -/

variable (x0 : (⟨S50000x128, .f32⟩ : BufTy).Contents (Elt Ideal)) (x1 : (⟨S50000x3, .f32⟩ : BufTy).Contents (Elt Ideal)) (x2 : (⟨S257x128, .f32⟩ : BufTy).Contents (Elt Ideal))
  (x3 : (⟨S128, .f32⟩ : BufTy).Contents (Elt Ideal)) (x4 : (⟨S128x128, .f32⟩ : BufTy).Contents (Elt Ideal)) (x5 : (⟨S128, .f32⟩ : BufTy).Contents (Elt Ideal))
  (x10 : (⟨S128x128, .f32⟩ : BufTy).Contents (Elt Ideal)) (x11 : (⟨S128, .f32⟩ : BufTy).Contents (Elt Ideal)) (x12 : (⟨S128x1, .f32⟩ : BufTy).Contents (Elt Ideal))
  (x13 x14 : (⟨S800000, .i32⟩ : BufTy).Contents (Elt Ideal))

theorem ref_msg (w0s w0r : Mat 128 128) (w0rad b0 b1 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j)) :
    val_main_v42 (F := Ideal) x0 x1 x2 x3 x4 x5 x13 x14
      = EdgeMsg (n := 800000) (val_main_v24 (F := Ideal) x0 x13) (val_main_v31 (F := Ideal) x0 x14)
          (val_main_v17 (F := Ideal) x1 x13 x14) w0s w0r w0rad b0 x4 b1 := by
  funext i
  obtain ⟨p, j, rfl⟩ : ∃ (p : Fin 800000) (j : Fin 128), i = ix2 p j := ⟨i 0, i 1, eq_ix2 i⟩
  rw [msg_at w0s w0r w0rad b0 b1 hs hr hrad hb0 hb1, EdgeMsg_apply]

theorem ref_trans (w0s w0r : Mat 128 128) (w0rad b0 b1 pb0 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j))
    (hpb0 : ∀ j : Fin 128, pb0 (ix2 0 j) = x11 (ix1 j)) :
    val_main_v65 (F := Ideal) x0 x1 x2 x3 x4 x5 x10 x11 x12 x13 x14
      = EdgeTrans (n := 800000) (val_main_v24 (F := Ideal) x0 x13) (val_main_v31 (F := Ideal) x0 x14)
          (val_main_v17 (F := Ideal) x1 x13 x14) (val_main_v14 (F := Ideal) x1 x13 x14) w0s w0r w0rad b0 x4 b1 x10 pb0 x12 := by
  funext i
  obtain ⟨p, q, rfl⟩ : ∃ (p : Fin 800000) (q : Fin 3), i = ix2 p q := ⟨i 0, i 1, eq_ix2 i⟩
  rw [trans_at w0s w0r w0rad b0 b1 pb0 hs hr hrad hb0 hb1 hpb0, EdgeTrans_apply]

end Cert.ReferenceIdeal.RefEdge

end
-- ==== Proof.RefNode.lean ====
/-
  The reference's node network, read row by row: its updated features (`%56`) are `Egnn.NodeOut` of the node
  features and the aggregated messages. The reference multiplies the concatenation [features | aggregate] by the
  whole 256-row weight; cutting that sum at row 128 (`Egnn.sum_256`) gives the two products the specification adds.
-/
import proofs.«410676_j8297876816265_1_alg».proof.Proof.Gen.ReferenceIdeal.Read
import proofs.«410676_j8297876816265_1_alg».proof.Proof.Spec
import proofs.«410676_j8297876816265_1_alg».proof.Proof.LibRowOps

noncomputable section

namespace Cert.ReferenceIdeal.RefNode

open Cert.ReferenceIdeal Cert.ReferenceIdeal.Read Cert.Egnn Idealize.ShloMosaic Idealize.ShloMosaic.TcCoe Idealize.ShloMosaic.ValueIdx

variable (x0 : (⟨S50000x128, .f32⟩ : BufTy).Contents (Elt Ideal)) (x1 : (⟨S50000x3, .f32⟩ : BufTy).Contents (Elt Ideal)) (x2 : (⟨S257x128, .f32⟩ : BufTy).Contents (Elt Ideal))
  (x3 : (⟨S128, .f32⟩ : BufTy).Contents (Elt Ideal)) (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
  (x13 x14 : (⟨S800000, .i32⟩ : BufTy).Contents (Elt Ideal))

open scoped BigOperators

/-- The word `0x3F800000` is the number one. -/
theorem ofBits_one : Ideal.ofBits .f32 0x3F800000#32 = 1 := by
  simp [Ideal.ofBits, Ideal.ieee, -EReal.coe_mul]; norm_num

/-- Two `[50000, 128]` arrays side by side, at a column of the first: the first array there. -/
theorem cat_left {α : Type} (a b : S50000x128.Idx → α) (h : Shape.Concatenates [S50000x128, S50000x128] S50000x256 1)
    (p : Fin 50000) (k : Fin 128) :
    concatenate S50000x256 1 [⟨S50000x128, a⟩, ⟨S50000x128, b⟩] h (ix2 p (⟨k.val, by omega⟩ : Fin 256)) = a (ix2 p k) :=
  concatenate_pair_apply_left 1 a b h (ix2 p (⟨k.val, by omega⟩ : Fin 256)) rfl (ix2 p k)
    (fun bb => by match bb with | ⟨0, _⟩ => rfl | ⟨1, _⟩ => rfl)

/-- … and at column `128 + k`: the second array at column `k`. -/
theorem cat_right {α : Type} (a b : S50000x128.Idx → α) (h : Shape.Concatenates [S50000x128, S50000x128] S50000x256 1)
    (p : Fin 50000) (k : Fin 128) :
    concatenate S50000x256 1 [⟨S50000x128, a⟩, ⟨S50000x128, b⟩] h (ix2 p (⟨128 + k.val, by omega⟩ : Fin 256)) = b (ix2 p k) :=
  concatenate_pair_apply_right 1 a b h (ix2 p (⟨128 + k.val, by omega⟩ : Fin 256)) rfl rfl (ix2 p k)
    (fun bb hb => by match bb with | ⟨0, _⟩ => rfl | ⟨1, _⟩ => exact absurd rfl hb)
    (by show k.val + 128 = 128 + k.val; omega)

/-- The hidden layer before its activation (`%50`) at `(p, k)`: the sum over the 256 rows of the weight, cut at row
    128, is row `p` of the features times column `k` of `wa` plus row `p` of the aggregate times column `k` of `wb`. -/
theorem pre_apply (G : (⟨S50000x128, .f32⟩ : BufTy).Contents (Elt Ideal))
    (hG : val_main_v45 (F := Ideal) x0 x1 x2 x3 x4 x5 x13 x14 = G) (wa wb : Mat 128 128) (nb0 : Mat 1 128)
    (ha : ∀ k j : Fin 128, wa (ix2 k j) = x6 (ix2 ⟨k.val, by omega⟩ j))
    (hb : ∀ k j : Fin 128, wb (ix2 k j) = x6 (ix2 ⟨128 + k.val, by omega⟩ j))
    (hn0 : ∀ j : Fin 128, nb0 (ix2 0 j) = x7 (ix1 j)) (p : Fin 50000) (k : Fin 128) :
    val_main_v50 (F := Ideal) x0 x1 x2 x3 x4 x5 x6 x7 x13 x14 (ix2 p k)
      = ((∑ k' : Fin 128, x0 (ix2 p k') * wa (ix2 k' k))
          + ∑ k' : Fin 128, G (ix2 p k') * wb (ix2 k' k)) + nb0 (ix2 0 k) := by
  have el : ∀ q : Fin 256, lidx_main_v47 (ix2 p k) q = ix2 p q := fun q =>
    funext fun a => Fin.ext (by match a with | ⟨0, _⟩ => rfl | ⟨1, _⟩ => rfl)
  have er : ∀ q : Fin 256, ridx_main_v47 (ix2 p k) q = ix2 q k := fun q =>
    funext fun a => Fin.ext (by match a with | ⟨0, _⟩ => rfl | ⟨1, _⟩ => rfl)
  have e49 : idx_main_v49 (ix2 p k) = ix2 (0 : Fin 1) k :=
    funext fun a => Fin.ext (by match a with | ⟨0, _⟩ => rfl | ⟨1, _⟩ => rfl)
  have e48 : idx_main_v48 (ix2 (0 : Fin 1) k) = ix1 k :=
    funext fun a => Fin.ext (by match a with | ⟨0, _⟩ => rfl)
  rw [val_main_v50_apply, val_main_v47_apply, val_main_v49_apply, e49, val_main_v48_apply, e48, ← hn0 k, Ideal.addf_def]
  unfold val_main_v46
  rw [hG, sum_256]
  refine congrArg (· + nb0 (ix2 0 k)) (congrArg₂ (· + ·) (Finset.sum_congr rfl fun k' _ => ?_) (Finset.sum_congr rfl fun k' _ => ?_))
  · rw [el, er, cat_left, ha]
  · rw [el, er, cat_right, hb]

/-- The hidden layer (`%51`) at `(p, k)`: `v * (1 / (1 + e^(-v)))` is `silu v`. -/
theorem hidden_apply (G : (⟨S50000x128, .f32⟩ : BufTy).Contents (Elt Ideal))
    (hG : val_main_v45 (F := Ideal) x0 x1 x2 x3 x4 x5 x13 x14 = G) (wa wb : Mat 128 128) (nb0 : Mat 1 128)
    (ha : ∀ k j : Fin 128, wa (ix2 k j) = x6 (ix2 ⟨k.val, by omega⟩ j))
    (hb : ∀ k j : Fin 128, wb (ix2 k j) = x6 (ix2 ⟨128 + k.val, by omega⟩ j))
    (hn0 : ∀ j : Fin 128, nb0 (ix2 0 j) = x7 (ix1 j)) (p : Fin 50000) (k : Fin 128) :
    val_main_v51 (F := Ideal) x0 x1 x2 x3 x4 x5 x6 x7 x13 x14 (ix2 p k)
      = silu (((∑ k' : Fin 128, row x0 p k' * wa (ix2 k' k))
          + ∑ k' : Fin 128, row G p k' * wb (ix2 k' k)) + nb0 (ix2 0 k)) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, pre_apply x0 x1 x2 x3 x4 x5 x6 x7 x13 x14 G hG wa wb nb0 ha hb hn0 p k]
  simp only [Ideal.mulf_def, Ideal.hostDivf_def, Ideal.addf_def, Ideal.hostUnary_exp_def, Ideal.hostNegf_def, Ideal.negf_def,
    Ideal.ofBits_def, ofBits_one]
  rfl

theorem ref_node (wa wb : Mat 128 128) (nb0 nb1 : Mat 1 128)
    (ha : ∀ k j : Fin 128, wa (ix2 k j) = x6 (ix2 ⟨k.val, by omega⟩ j))
    (hb : ∀ k j : Fin 128, wb (ix2 k j) = x6 (ix2 ⟨128 + k.val, by omega⟩ j))
    (hn0 : ∀ j : Fin 128, nb0 (ix2 0 j) = x7 (ix1 j)) (hn1 : ∀ j : Fin 128, nb1 (ix2 0 j) = x9 (ix1 j)) :
    val_main_v56 (F := Ideal) x0 x1 x2 x3 x4 x5 x6 x7 x8 x9 x13 x14
      = NodeOut (n := 50000) x0 (val_main_v45 (F := Ideal) x0 x1 x2 x3 x4 x5 x13 x14) wa wb nb0 x8 nb1 := by
  funext i
  obtain ⟨p, j, rfl⟩ : ∃ (p : Fin 50000) (j : Fin 128), i = ix2 p j := ⟨i 0, i 1, eq_ix2 i⟩
  generalize hG : val_main_v45 (F := Ideal) x0 x1 x2 x3 x4 x5 x13 x14 = G
  have el : ∀ k : Fin 128, lidx_main_v52 (ix2 p j) k = ix2 p k := fun k =>
    funext fun a => Fin.ext (by match a with | ⟨0, _⟩ => rfl | ⟨1, _⟩ => rfl)
  have er : ∀ k : Fin 128, ridx_main_v52 (ix2 p j) k = ix2 k j := fun k =>
    funext fun a => Fin.ext (by match a with | ⟨0, _⟩ => rfl | ⟨1, _⟩ => rfl)
  have e54 : idx_main_v54 (ix2 p j) = ix2 (0 : Fin 1) j :=
    funext fun a => Fin.ext (by match a with | ⟨0, _⟩ => rfl | ⟨1, _⟩ => rfl)
  have e53 : idx_main_v53 (ix2 (0 : Fin 1) j) = ix1 j :=
    funext fun a => Fin.ext (by match a with | ⟨0, _⟩ => rfl)
  rw [NodeOut_apply, val_main_v56_apply, val_main_v55_apply, val_main_v52_apply, val_main_v54_apply, e54, val_main_v53_apply, e53,
    ← hn1 j, Ideal.addf_def, Ideal.addf_def]
  unfold nodeRow
  refine congrArg (fun s => x0 (ix2 p j) + (s + nb1 (ix2 0 j))) (Finset.sum_congr rfl fun k _ => ?_)
  rw [el, er, hidden_apply x0 x1 x2 x3 x4 x5 x6 x7 x13 x14 G hG wa wb nb0 ha hb hn0 p k]

end Cert.ReferenceIdeal.RefNode

end
-- ==== Proof.RefValue.lean ====
/-
  The reference's two results as the same row-wise functions of its arguments.

  The reference gathers with the same wrapped indices (without a bounds check), so its four gathers, its squared
  distances and its two scatter-adds are the host-side terms of the kernel's program, letter for letter; its edge
  and node layers are the row-wise functions by the two reference modules. The weight pieces are any arrays whose
  entries are the rows of the reference's weights.
-/
import proofs.«410676_j8297876816265_1_alg».proof.Proof.RefEdge
import proofs.«410676_j8297876816265_1_alg».proof.Proof.RefNode
import proofs.«410676_j8297876816265_1_alg».proof.Proof.HostTerms

set_option maxRecDepth 16384

noncomputable section

namespace Cert.ReferenceIdeal.RefValue

open Cert.ReferenceIdeal Cert.ReferenceIdeal.Read Cert.Egnn Idealize.ShloMosaic Idealize.ShloMosaic.TcCoe Idealize.ShloMosaic.ValueIdx
open Cert.KernelIdeal.Terms (gath128 gath3 sqLen agg128 agg3)

variable (x0 : (⟨S50000x128, .f32⟩ : BufTy).Contents (Elt Ideal)) (x1 : (⟨S50000x3, .f32⟩ : BufTy).Contents (Elt Ideal)) (x2 : (⟨S257x128, .f32⟩ : BufTy).Contents (Elt Ideal))
  (x3 : (⟨S128, .f32⟩ : BufTy).Contents (Elt Ideal)) (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal)) (x12 : (⟨S128x1, .f32⟩ : BufTy).Contents (Elt Ideal))
  (x13 x14 : (⟨S800000, .i32⟩ : BufTy).Contents (Elt Ideal))

/-! ## The wrapped index columns

Each of the reference's four index columns is the once-wrapped column of its index array. -/

theorem wrap5 : val_main_v5 (F := Ideal) x13 = Cert.KernelIdeal.Take.wrapIdx x13 := rfl

theorem wrap12 : val_main_v12 (F := Ideal) x14 = Cert.KernelIdeal.Take.wrapIdx x14 := rfl

theorem wrap23 : val_main_v23 (F := Ideal) x13 = Cert.KernelIdeal.Take.wrapIdx x13 := rfl

theorem wrap30 : val_main_v30 (F := Ideal) x14 = Cert.KernelIdeal.Take.wrapIdx x14 := rfl

/-! ## The four gathers -/

theorem gath6 : val_main_v6 (F := Ideal) x1 x13 = gath3 x1 x13 := by
  unfold val_main_v6
  rw [wrap5 x13]
  rfl

theorem gath13 : val_main_v13 (F := Ideal) x1 x14 = gath3 x1 x14 := by
  unfold val_main_v13
  rw [wrap12 x14]
  rfl

theorem gath24 : val_main_v24 (F := Ideal) x0 x13 = gath128 x0 x13 := by
  unfold val_main_v24
  rw [wrap23 x13]
  rfl

theorem gath31 : val_main_v31 (F := Ideal) x0 x14 = gath128 x0 x14 := by
  unfold val_main_v31
  rw [wrap30 x14]
  rfl

/-! ## The position differences and their squared lengths -/

theorem diff14 : val_main_v14 (F := Ideal) x1 x13 x14 = subf (gath3 x1 x13) (gath3 x1 x14) := by
  unfold val_main_v14
  rw [gath6 x1 x13, gath13 x1 x14]

theorem sq17 : val_main_v17 (F := Ideal) x1 x13 x14 = sqLen (subf (gath3 x1 x13) (gath3 x1 x14)) := by
  unfold val_main_v17 val_main_v16 val_main_v15 val_main_cst
  rw [diff14 x1 x13 x14]

/-! ## The two scatter-adds -/

theorem agg45 : val_main_v45 (F := Ideal) x0 x1 x2 x3 x4 x5 x13 x14
    = agg128 x14 (val_main_v42 (F := Ideal) x0 x1 x2 x3 x4 x5 x13 x14) := by
  unfold val_main_v45 val_main_v44 val_main_v43 val_main_cst_7
  rfl

theorem agg68 : val_main_v68 (F := Ideal) x0 x1 x2 x3 x4 x5 x10 x11 x12 x13 x14
    = agg3 x13 (val_main_v65 (F := Ideal) x0 x1 x2 x3 x4 x5 x10 x11 x12 x13 x14) := by
  unfold val_main_v68 val_main_v67 val_main_v66 val_main_cst_10
  rfl

/-- The updated features. -/
theorem ref_node_closed (w0s w0r : Mat 128 128) (w0rad b0 b1 : Mat 1 128) (wa wb : Mat 128 128) (nb0 nb1 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j))
    (ha : ∀ k j : Fin 128, wa (ix2 k j) = x6 (ix2 ⟨k.val, by omega⟩ j))
    (hb : ∀ k j : Fin 128, wb (ix2 k j) = x6 (ix2 ⟨128 + k.val, by omega⟩ j))
    (hn0 : ∀ j : Fin 128, nb0 (ix2 0 j) = x7 (ix1 j)) (hn1 : ∀ j : Fin 128, nb1 (ix2 0 j) = x9 (ix1 j)) :
    val_main_v56 (F := Ideal) x0 x1 x2 x3 x4 x5 x6 x7 x8 x9 x13 x14
      = NodeOut (n := 50000) x0
          (agg128 x14 (EdgeMsg (n := 800000) (gath128 x0 x13) (gath128 x0 x14) (sqLen (subf (gath3 x1 x13) (gath3 x1 x14)))
            w0s w0r w0rad b0 x4 b1))
          wa wb nb0 x8 nb1 := by
  rw [RefNode.ref_node x0 x1 x2 x3 x4 x5 x6 x7 x8 x9 x13 x14 wa wb nb0 nb1 ha hb hn0 hn1,
    agg45 x0 x1 x2 x3 x4 x5 x13 x14,
    RefEdge.ref_msg x0 x1 x2 x3 x4 x5 x13 x14 w0s w0r w0rad b0 b1 hs hr hrad hb0 hb1,
    gath24 x0 x13, gath31 x0 x14, sq17 x1 x13 x14]

/-- The updated positions. -/
theorem ref_pos_closed (w0s w0r : Mat 128 128) (w0rad b0 b1 pb0 : Mat 1 128)
    (hs : ∀ k j : Fin 128, w0s (ix2 k j) = x2 (ix2 ⟨k.val, by omega⟩ j))
    (hr : ∀ k j : Fin 128, w0r (ix2 k j) = x2 (ix2 ⟨128 + k.val, by omega⟩ j))
    (hrad : ∀ j : Fin 128, w0rad (ix2 0 j) = x2 (ix2 ⟨256, by omega⟩ j))
    (hb0 : ∀ j : Fin 128, b0 (ix2 0 j) = x3 (ix1 j)) (hb1 : ∀ j : Fin 128, b1 (ix2 0 j) = x5 (ix1 j))
    (hpb0 : ∀ j : Fin 128, pb0 (ix2 0 j) = x11 (ix1 j)) :
    val_main_v69 (F := Ideal) x0 x1 x2 x3 x4 x5 x10 x11 x12 x13 x14
      = addf x1 (agg3 x13 (EdgeTrans (n := 800000) (gath128 x0 x13) (gath128 x0 x14)
          (sqLen (subf (gath3 x1 x13) (gath3 x1 x14))) (subf (gath3 x1 x13) (gath3 x1 x14))
          w0s w0r w0rad b0 x4 b1 x10 pb0 x12)) := by
  unfold val_main_v69
  rw [agg68 x0 x1 x2 x3 x4 x5 x10 x11 x12 x13 x14,
    RefEdge.ref_trans x0 x1 x2 x3 x4 x5 x10 x11 x12 x13 x14 w0s w0r w0rad b0 b1 pb0 hs hr hrad hb0 hb1 hpb0,
    gath24 x0 x13, gath31 x0 x14, sq17 x1 x13 x14, diff14 x1 x13 x14]

end Cert.ReferenceIdeal.RefValue

end
-- ==== Proof.Bridge.lean ====
/-
  The reference's two results are the kernel program's.

  From memories that agree on the fifteen arguments, the reference's results are the row-wise functions of the same
  gathered rows, squared distances and aggregates; as weight pieces take the buffers the two kernels find, whose
  entries are the rows of the (shared) weights and biases.
-/
import proofs.«410676_j8297876816265_1_alg».proof.Proof.KernelValue
import proofs.«410676_j8297876816265_1_alg».proof.Proof.RefValue

set_option maxRecDepth 16384

noncomputable section

namespace Cert.Bridge

open Idealize.ShloMosaic Idealize.ShloMosaic.TcCoe Idealize.SL.Sem
open Cert.KernelIdeal.Fold

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The updated features. -/
theorem ref_node (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v56 m' c = nodeResult m ρ c := by
  obtain ⟨e0, e1, e2, e3, e4, e5, e6, e7, e8, e9, e10, e11, e12, e13, e14⟩ := h
  rw [Cert.ReferenceIdeal.Read.val_main_v56_eq, e0, e1, e2, e3, e4, e5, e6, e7, e8, e9, e13, e14]
  unfold nodeResult msgG posDiffG
  exact Cert.ReferenceIdeal.RefValue.ref_node_closed _ _ _ _ _ _ _ _ _ _ _ _
    (Cert.KernelIdeal.Gen.V5 m ρ c Cert.KernelIdeal.main_v8) (Cert.KernelIdeal.Gen.V5 m ρ c Cert.KernelIdeal.main_v9) (Cert.KernelIdeal.Gen.V5 m ρ c Cert.KernelIdeal.main_v10) (Cert.KernelIdeal.Gen.V5 m ρ c Cert.KernelIdeal.main_v11) (Cert.KernelIdeal.Gen.V5 m ρ c Cert.KernelIdeal.main_v12)
    (Cert.KernelIdeal.Gen.V7 m ρ c Cert.KernelIdeal.main_v21) (Cert.KernelIdeal.Gen.V7 m ρ c Cert.KernelIdeal.main_v22) (Cert.KernelIdeal.Gen.V7 m ρ c Cert.KernelIdeal.main_v23) (Cert.KernelIdeal.Gen.V7 m ρ c Cert.KernelIdeal.main_v24)
    (V5_v8_at m ρ c) (V5_v9_at m ρ c) (V5_v10_at m ρ c) (V5_v11_at m ρ c) (V5_v12_at m ρ c)
    (V7_v21_at m ρ c) (V7_v22_at m ρ c) (V7_v23_at m ρ c) (V7_v24_at m ρ c)

/-- The updated positions. -/
theorem ref_pos (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v69 m' c = posResult m ρ c := by
  obtain ⟨e0, e1, e2, e3, e4, e5, e6, e7, e8, e9, e10, e11, e12, e13, e14⟩ := h
  rw [Cert.ReferenceIdeal.Read.val_main_v69_eq, e0, e1, e2, e3, e4, e5, e10, e11, e12, e13, e14]
  unfold posResult transG posDiffG
  exact Cert.ReferenceIdeal.RefValue.ref_pos_closed _ _ _ _ _ _ _ _ _ _ _
    (Cert.KernelIdeal.Gen.V5 m ρ c Cert.KernelIdeal.main_v8) (Cert.KernelIdeal.Gen.V5 m ρ c Cert.KernelIdeal.main_v9) (Cert.KernelIdeal.Gen.V5 m ρ c Cert.KernelIdeal.main_v10) (Cert.KernelIdeal.Gen.V5 m ρ c Cert.KernelIdeal.main_v11) (Cert.KernelIdeal.Gen.V5 m ρ c Cert.KernelIdeal.main_v12) (Cert.KernelIdeal.Gen.V5 m ρ c Cert.KernelIdeal.main_v13)
    (V5_v8_at m ρ c) (V5_v9_at m ρ c) (V5_v10_at m ρ c) (V5_v11_at m ρ c) (V5_v12_at m ρ c) (V5_v13_at m ρ c)

end Cert.Bridge

end
-- ==== Proof.lean ====
/-
  One layer of an equivariant graph network, as two Pallas kernels with host code around them, against the plain
  jnp layer: the claim.

  Per edge: the sender's and receiver's feature rows, their squared distance, two dense layers with silu, the
  message; a third dense layer and a 128-to-1 projection give a weight, and the clipped product of the position
  difference with it the translation. Messages are added into the receivers' rows, translations into the senders'.
  Per node: the features and the aggregated messages through two dense layers, added to the features.
  The kernel's program cuts the first edge weight and the first node weight into their row ranges outside the
  kernels and computes the edge part in blocks of 6400 edges and the node part in blocks of 5000 nodes; the
  reference concatenates the inputs instead and multiplies by the whole weights. At the extended reals the two are
  the same row-wise functions: a sum over the rows of a weight is the sum of the sums over its row ranges, by
  commutativity and associativity of addition alone, so no finiteness is used. The one use of the precondition is
  the range of the two index arrays (0 ≤ i < 50000): the kernel's program gathers with a bounds check that puts a
  NaN row where an index is out of range, the reference does not, and in range the two gathers agree.

  The three frames: the two kernel programs' are the generated ones; the reference's is its generated run with the
  results dropped. The ideal pass rewrote nothing, so `preserves` has nothing to state.
-/
import proofs.«410676_j8297876816265_1_alg».proof.Defs
import proofs.«410676_j8297876816265_1_alg».proof.Proof.Gen.Kernel
import proofs.«410676_j8297876816265_1_alg».proof.Proof.Gen.Kernel.Skeleton
import proofs.«410676_j8297876816265_1_alg».proof.Proof.Gen.Kernel.Launch
import proofs.«410676_j8297876816265_1_alg».proof.Proof.Gen.Kernel.Points
import proofs.«410676_j8297876816265_1_alg».proof.Proof.Gen.Kernel.Frame
import proofs.«410676_j8297876816265_1_alg».proof.Proof.Gen.KernelIdeal
import proofs.«410676_j8297876816265_1_alg».proof.Proof.Gen.KernelIdeal.Skeleton
import proofs.«410676_j8297876816265_1_alg».proof.Proof.Gen.KernelIdeal.Launch
import proofs.«410676_j8297876816265_1_alg».proof.Proof.Gen.KernelIdeal.Points
import proofs.«410676_j8297876816265_1_alg».proof.Proof.Gen.KernelIdeal.Frame
import proofs.«410676_j8297876816265_1_alg».proof.Proof.Gen.ReferenceIdeal
import proofs.«410676_j8297876816265_1_alg».proof.Proof.Gen.Pre_finite_inputs
import proofs.«410676_j8297876816265_1_alg».proof.Proof.Gen.ReferenceIdeal.Run
import proofs.«410676_j8297876816265_1_alg».proof.Proof.Gen.ReferenceIdeal.Read
import proofs.«410676_j8297876816265_1_alg».proof.Proof.KernelRun
import proofs.«410676_j8297876816265_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the updated features and the updated positions as the same functions of the arguments:
    the kernel program's by its run with the results named and their values through its host code and two
    kernels, the reference's by its generated run read stage by stage. -/
theorem algebraic : Cert.algebraic_KernelIdeal_ReferenceIdeal := by
  intro m ρ m' ρ' hpre hagree
  have hrange := fun c : Dev Cert.KernelIdeal.nD =>
    Cert.KernelIdeal.Take.range_of_pre _ _ _ _ _ _ _ _ _ _ _ _ _ _ _ (hpre c)
  refine ⟨Cert.KernelIdeal.Fold.nodeResult m ρ, Cert.KernelIdeal.Fold.posResult m ρ, ?_, ?_⟩
  · exact (θ_run Cert.KernelIdeal.defs _ _).mono
      (fun r h c => ⟨(h c).1.trans (Cert.KernelIdeal.Fold.node_result m ρ c (hrange c).1 (hrange c).2),
        (h c).2.1.trans (Cert.KernelIdeal.Fold.pos_result m ρ c (hrange c).1 (hrange c).2), (h c).2.2⟩)
      (Cert.KernelIdeal.Run.run (F := Ideal) m ρ)
  · exact (θ_run Cert.ReferenceIdeal.defs _ _).mono
      (fun r h c => ⟨(h c).1.trans (Cert.Bridge.ref_node m ρ m' c (hagree c)),
        (h c).2.1.trans (Cert.Bridge.ref_pos m ρ m' c (hagree c)), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
